-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1600000 : Shape := ⟨1, ![1600000]⟩
abbrev S50000 : Shape := ⟨1, ![50000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S128 .f32) (main_arg5 : FVec F S128x16 .f32) (main_arg6 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg5
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg6
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S50000x128 .f32) (main_arg1 : FVec F S128x128 .f32) (main_arg2 : FVec F S128 .f32) (main_arg3 : FVec F S128x128 .f32) (main_arg4 : FVec F S128 .f32) (main_arg5 : FVec F S128x16 .f32) (main_arg6 : FVec F S16 .f32) (main_arg7 : IVec S1600000 32) (main_arg8 : IVec S1600000 32) (main_arg9 : IVec S50000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1600000 : Shape := ⟨1, ![1600000]⟩
abbrev S50000 : Shape := ⟨1, ![50000]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S5000x128 : Shape := ⟨2, ![5000, 128]⟩
abbrev S5000x1 : Shape := ⟨2, ![5000, 1]⟩
abbrev S512x128 : Shape := ⟨2, ![512, 128]⟩
abbrev S512 : Shape := ⟨1, ![512]⟩
abbrev S512x1 : Shape := ⟨2, ![512, 1]⟩
abbrev S1x16 : Shape := ⟨2, ![1, 16]⟩
abbrev S512x16 : Shape := ⟨2, ![512, 16]⟩

abbrev nBuf : Space → Nat
  | .hbm => 94
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S1600000, .i32⟩
  | .hbm, ⟨8, _⟩ => ⟨S1600000, .i32⟩
  | .hbm, ⟨9, _⟩ => ⟨S50000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S50000, .f32⟩
  | .hbm, ⟨14, _⟩ => ⟨S1600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S1600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x1, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S50000x128, .f32⟩
  | .hbm, ⟨57, _⟩ => ⟨S1600000x1, .i32⟩
  | .hbm, ⟨58, _⟩ => ⟨S50000x128, .f32⟩
  | .hbm, ⟨59, _⟩ => ⟨S1x128, .f32⟩
  | .hbm, ⟨60, _⟩ => ⟨S50000x128, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x128, .f32⟩
  | .hbm, ⟨70, _⟩ => ⟨S_, .f32⟩
  | .hbm, ⟨71, _⟩ => ⟨S50000x128, .f32⟩
  | .hbm, ⟨72, _⟩ => ⟨S1600000x1, .i32⟩
  | .hbm, ⟨73, _⟩ => ⟨S50000x128, .f32⟩
  | .hbm, ⟨74, _⟩ => ⟨S1x128, .f32⟩
  | .hbm, ⟨75, _⟩ => ⟨S50000x128, .f32⟩
  | .hbm, ⟨76, _⟩ => ⟨S_, .f32⟩
  | .hbm, ⟨77, _⟩ => ⟨S512x128, .f32⟩
  | .hbm, ⟨78, _⟩ => ⟨S50000x1, .i32⟩
  | .hbm, ⟨79, _⟩ => ⟨S512x128, .f32⟩
  | .hbm, ⟨80, _⟩ => ⟨S_, .f32⟩
  | .hbm, ⟨81, _⟩ => ⟨S50000, .f32⟩
  | .hbm, ⟨82, _⟩ => ⟨S_, .f32⟩
  | .hbm, ⟨83, _⟩ => ⟨S512, .f32⟩
  | .hbm, ⟨84, _⟩ => ⟨S50000x1, .i32⟩
  | .hbm, ⟨85, _⟩ => ⟨S512, .f32⟩
  | .hbm, ⟨86, _⟩ => ⟨S_, .f32⟩
  | .hbm, ⟨87, _⟩ => ⟨S512, .f32⟩
  | .hbm, ⟨88, _⟩ => ⟨S512, .f32⟩
  | .hbm, ⟨89, _⟩ => ⟨S512x1, .f32⟩
  | .hbm, ⟨90, _⟩ => ⟨S512x128, .f32⟩
  | .hbm, ⟨91, _⟩ => ⟨S512x128, .f32⟩
  | .hbm, ⟨92, _⟩ => ⟨S1x16, .f32⟩
  | .hbm, ⟨93, _⟩ => ⟨S512x16, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S1x128, .f32⟩
  | .local _ .vmem, ⟨6, _⟩ => ⟨S5000x1, .f32⟩
  | .local _ .vmem, ⟨7, _⟩ => ⟨S5000x1, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x1, .f32⟩
  | .local _ .vmem, ⟨13, _⟩ => ⟨S5000x1, .f32⟩
  | .local _ .vmem, ⟨14, _⟩ => ⟨S128x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S512x128, .f32⟩
  | .local _ .vmem, ⟨19, _⟩ => ⟨S128x16, .f32⟩
  | .local _ .vmem, ⟨20, _⟩ => ⟨S1x16, .f32⟩
  | .local _ .vmem, ⟨21, _⟩ => ⟨S512x16, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c : Ref sig .tc := ⟨.hbm, 46, rfl⟩
abbrev main_v23 : Ref sig .tc := ⟨.hbm, 47, rfl⟩
abbrev main_v24 : Ref sig .tc := ⟨.hbm, 48, rfl⟩
abbrev main_c_8 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_9 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_c_10 : Ref sig .tc := ⟨.hbm, 61, rfl⟩
abbrev main_v35 : Ref sig .tc := ⟨.hbm, 62, rfl⟩
abbrev main_v36 : Ref sig .tc := ⟨.hbm, 63, rfl⟩
abbrev main_c_11 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_cst_12 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_cst_13 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_14 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_16 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem1_0 : DmaSem sig := 19
abbrev cc2_sem2_0 : DmaSem sig := 20
abbrev cc2_sem3_0 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S512x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x16 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x16 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  shapeCasts_S50000_S50000x1 : S50000.ShapeCasts S50000x1
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S512x128 : S_.BroadcastsInDim S512x128 (![] : Fin 0 → Fin S512x128.rank)
  bcast_S50000_S50000x1_0 : S50000.BroadcastsInDim S50000x1 (![0] : Fin 1 → Fin S50000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  shapeCasts_S16_S1x16 : S16.ShapeCasts S1x16
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S512x16 : S1x16.Broadcasts S512x16
  inb_S512x16_S512x16_0_0 : ∀ a, (![0, 0] : Fin 2 → Nat) a + S512x16.size a ≤ S512x16.size a
  h_S512x16 : 0 < S512x16.numel
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S5000x128_S128x128_S5000x128_1_0_0_1_n_n_wf : DotDims.WF S5000x128 S128x128 S5000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x16_S512x16_1_0_0_1_n_n_wf : DotDims.WF S512x128 S128x16 S512x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S50000x1.size a
  hwx0_4 : ∀ i : grid0.Coords, EltTy.bits .f32 = 32 ∨ (Rect.block (s := S50000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S512x128.size a ≤ S512x128.size a
  hwx2_0 : ∀ i : grid2.Coords, EltTy.bits .f32 = 32 ∨ (Rect.block (s := S512x128) S512x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x16.size a ≤ S128x16.size a
  hwx2_1 : ∀ i : grid2.Coords, EltTy.bits .f32 = 32 ∨ (Rect.block (s := S128x16) S128x16.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x16.size a ≤ S1x16.size a
  hwx2_2 : ∀ i : grid2.Coords, EltTy.bits .f32 = 32 ∨ (Rect.block (s := S1x16) S1x16.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S512x16.size a ≤ S512x16.size a
  hwx2_3 : ∀ i : grid2.Coords, EltTy.bits .f32 = 32 ∨ (Rect.block (s := S512x16) S512x16.size (cc2_transform_3 i) (hinb2_3 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v34) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v44) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v46) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v58) S512x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x16.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S512x16.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S128x128 : Shape := ⟨2, ![128, 128]⟩
abbrev S128 : Shape := ⟨1, ![128]⟩
abbrev S128x16 : Shape := ⟨2, ![128, 16]⟩
abbrev S16 : Shape := ⟨1, ![16]⟩
abbrev S1600000 : Shape := ⟨1, ![1600000]⟩
abbrev S50000 : Shape := ⟨1, ![50000]⟩
abbrev S_ : Shape := ⟨0, ![]⟩
abbrev S1600000x1 : Shape := ⟨2, ![1600000, 1]⟩
abbrev S50000x1 : Shape := ⟨2, ![50000, 1]⟩
abbrev S1600000x128 : Shape := ⟨2, ![1600000, 128]⟩
abbrev S1x128 : Shape := ⟨2, ![1, 128]⟩
abbrev S512x128 : Shape := ⟨2, ![512, 128]⟩
abbrev S512 : Shape := ⟨1, ![512]⟩
abbrev S512x1 : Shape := ⟨2, ![512, 1]⟩
abbrev S512x16 : Shape := ⟨2, ![512, 16]⟩
abbrev S1x16 : Shape := ⟨2, ![1, 16]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x16, .f32⟩
  | .hbm, ⟨6, _⟩ => ⟨S16, .f32⟩
  | .hbm, ⟨7, _⟩ => ⟨S1600000, .i32⟩
  | .hbm, ⟨8, _⟩ => ⟨S1600000, .i32⟩
  | .hbm, ⟨9, _⟩ => ⟨S50000, .i32⟩
  | .hbm, ⟨10, _⟩ => ⟨S_, .f32⟩
  | .hbm, ⟨11, _⟩ => ⟨S1600000, .f32⟩
  | .hbm, ⟨12, _⟩ => ⟨S_, .f32⟩
  | .hbm, ⟨13, _⟩ => ⟨S50000, .f32⟩
  | .hbm, ⟨14, _⟩ => ⟨S1600000x1, .i32⟩
  | .hbm, ⟨15, _⟩ => ⟨S50000, .f32⟩
  | .hbm, ⟨16, _⟩ => ⟨S_, .f32⟩
  | .hbm, ⟨17, _⟩ => ⟨S50000, .f32⟩
  | .hbm, ⟨18, _⟩ => ⟨S1600000x1, .i32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .i1⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .i1⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000, .f32⟩
  | .hbm, ⟨38, _⟩ => ⟨S_, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x128, .f32⟩
  | .hbm, ⟨54, _⟩ => ⟨S_, .f32⟩
  | .hbm, ⟨55, _⟩ => ⟨S50000x128, .f32⟩
  | .hbm, ⟨56, _⟩ => ⟨S1600000x1, .i32⟩
  | .hbm, ⟨57, _⟩ => ⟨S50000x128, .f32⟩
  | .hbm, ⟨58, _⟩ => ⟨S50000x1, .f32⟩
  | .hbm, ⟨59, _⟩ => ⟨S50000x128, .f32⟩
  | .hbm, ⟨60, _⟩ => ⟨S50000x128, .f32⟩
  | .hbm, ⟨61, _⟩ => ⟨S50000x128, .f32⟩
  | .hbm, ⟨62, _⟩ => ⟨S1x128, .f32⟩
  | .hbm, ⟨63, _⟩ => ⟨S50000x128, .f32⟩
  | .hbm, ⟨64, _⟩ => ⟨S50000x128, .f32⟩
  | .hbm, ⟨65, _⟩ => ⟨S_, .f32⟩
  | .hbm, ⟨66, _⟩ => ⟨S50000x128, .f32⟩
  | .hbm, ⟨67, _⟩ => ⟨S50000x128, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x128, .f32⟩
  | .hbm, ⟨80, _⟩ => ⟨S_, .f32⟩
  | .hbm, ⟨81, _⟩ => ⟨S50000x128, .f32⟩
  | .hbm, ⟨82, _⟩ => ⟨S1600000x1, .i32⟩
  | .hbm, ⟨83, _⟩ => ⟨S50000x128, .f32⟩
  | .hbm, ⟨84, _⟩ => ⟨S50000x1, .f32⟩
  | .hbm, ⟨85, _⟩ => ⟨S50000x128, .f32⟩
  | .hbm, ⟨86, _⟩ => ⟨S50000x128, .f32⟩
  | .hbm, ⟨87, _⟩ => ⟨S50000x128, .f32⟩
  | .hbm, ⟨88, _⟩ => ⟨S1x128, .f32⟩
  | .hbm, ⟨89, _⟩ => ⟨S50000x128, .f32⟩
  | .hbm, ⟨90, _⟩ => ⟨S50000x128, .f32⟩
  | .hbm, ⟨91, _⟩ => ⟨S_, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S512x128, .f32⟩
  | .hbm, ⟨96, _⟩ => ⟨S50000x1, .i32⟩
  | .hbm, ⟨97, _⟩ => ⟨S512x128, .f32⟩
  | .hbm, ⟨98, _⟩ => ⟨S_, .f32⟩
  | .hbm, ⟨99, _⟩ => ⟨S50000, .f32⟩
  | .hbm, ⟨100, _⟩ => ⟨S_, .f32⟩
  | .hbm, ⟨101, _⟩ => ⟨S512, .f32⟩
  | .hbm, ⟨102, _⟩ => ⟨S50000x1, .i32⟩
  | .hbm, ⟨103, _⟩ => ⟨S512, .f32⟩
  | .hbm, ⟨104, _⟩ => ⟨S_, .f32⟩
  | .hbm, ⟨105, _⟩ => ⟨S512, .f32⟩
  | .hbm, ⟨106, _⟩ => ⟨S512, .f32⟩
  | .hbm, ⟨107, _⟩ => ⟨S512x1, .f32⟩
  | .hbm, ⟨108, _⟩ => ⟨S512x128, .f32⟩
  | .hbm, ⟨109, _⟩ => ⟨S512x128, .f32⟩
  | .hbm, ⟨110, _⟩ => ⟨S512x16, .f32⟩
  | .hbm, ⟨111, _⟩ => ⟨S1x16, .f32⟩
  | .hbm, ⟨112, _⟩ => ⟨S512x16, .f32⟩
  | .hbm, ⟨113, _⟩ => ⟨S512x16, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst_1 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_cst_2 : Ref sig .tc := ⟨.hbm, 20, rfl⟩
abbrev main_v7 : Ref sig .tc := ⟨.hbm, 21, rfl⟩
abbrev main_v8 : Ref sig .tc := ⟨.hbm, 22, rfl⟩
abbrev main_cst_3 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_v12 : Ref sig .tc := ⟨.hbm, 30, rfl⟩
abbrev main_cst_5 : Ref sig .tc := ⟨.hbm, 31, rfl⟩
abbrev main_v13 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_7 : Ref sig .tc := ⟨.hbm, 38, rfl⟩
abbrev main_call1_v0 : Ref sig .tc := ⟨.hbm, 39, rfl⟩
abbrev main_call1_v1 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c : Ref sig .tc := ⟨.hbm, 45, rfl⟩
abbrev main_v22 : Ref sig .tc := ⟨.hbm, 46, rfl⟩
abbrev main_v23 : Ref sig .tc := ⟨.hbm, 47, rfl⟩
abbrev main_c_8 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_9 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_call2_cst : Ref sig .tc := ⟨.hbm, 65, rfl⟩
abbrev main_call2_v0 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c_10 : Ref sig .tc := ⟨.hbm, 71, rfl⟩
abbrev main_v43 : Ref sig .tc := ⟨.hbm, 72, rfl⟩
abbrev main_v44 : Ref sig .tc := ⟨.hbm, 73, rfl⟩
abbrev main_c_11 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_12 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_call3_cst : Ref sig .tc := ⟨.hbm, 91, rfl⟩
abbrev main_call3_v0 : Ref sig .tc := ⟨.hbm, 92, rfl⟩
abbrev main_v60 : Ref sig .tc := ⟨.hbm, 93, rfl⟩
abbrev main_cst_13 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_cst_14 : Ref sig .tc := ⟨.hbm, 98, rfl⟩
abbrev main_v64 : Ref sig .tc := ⟨.hbm, 99, rfl⟩
abbrev main_cst_15 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_cst_16 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S512x128 : S_.BroadcastsInDim S512x128 (![] : Fin 0 → Fin S512x128.rank)
  bcast_S_S512 : S_.BroadcastsInDim S512 (![] : Fin 0 → Fin S512.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S16_S1x16_1 : S16.BroadcastsInDim S1x16 (![1] : Fin 1 → Fin S1x16.rank)
  bcast_S1x16_S512x16_0_1 : S1x16.BroadcastsInDim S512x16 (![0, 1] : Fin 2 → Fin S512x16.rank)
  scatter_S50000_S1600000x1_S1600000_n_0_0_1_wf : ScatterDims.WF S50000 S1600000x1 S1600000 [] [0] [0] 1
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  dot_S50000x128_S128x128_S50000x128_1_0_0_1_n_n_wf : DotDims.WF S50000x128 S128x128 S50000x128 [1] [0] [0] [1] [] []
  scatter_S512x128_S50000x1_S50000x128_1_0_0_1_wf : ScatterDims.WF S512x128 S50000x1 S50000x128 [1] [0] [0] 1
  scatter_S512_S50000x1_S50000_n_0_0_1_wf : ScatterDims.WF S512 S50000x1 S50000 [] [0] [0] 1
  dot_S512x128_S128x16_S512x16_1_0_0_1_n_n_wf : DotDims.WF S512x128 S128x16 S512x16 [1] [0] [0] [1] [] []

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def dot_S512x128_S128x16_S512x16_1_0_0_1_n_n : DotDims S512x128 S128x16 S512x16 where
  lhsContracting := [1]
  rhsContracting := [0]
  lhsNonContracting := [0]
  rhsNonContracting := [1]
  lhsBatch := []
  rhsBatch := []
  wf := dot_S512x128_S128x16_S512x16_1_0_0_1_n_n_wf

class Facts : Prop extends Facts₀ where

variable [Facts]
-- ==== Proof.Spec.lean ====
/-
  One dense half of a graph convolution and the closing classifier, as functions of WHOLE arrays read entry by entry
  over the extended reals.  Both programs compute, per layer,
      out[r, j] = max( Σ_k (agg[r, k] · ni[r]) · W[k, j] + b[j], 0 )        (· no[r] in the first layer),
  the kernel one block of 5000 rows at a time with the matrix product into a zero accumulator, the reference on
  all 50000 rows at once with `dot_general`; and at the end
      res[g, j] = Σ_k pooled[g, k] · Wf[k, j] + bf[j].
  The factors, the order of the products and the order of the sum's terms are the same on both sides, so the two
  sides meet at these functions with no law of arithmetic beyond reading each operation at an index.
  The row factors arrive as one-column arrays [50000, 1] and the biases as one-row arrays [1, 128], [1, 16].
-/
import proofs.«402149_j41214506172827_3_alg».proof.KernelIdeal
import Idealize.ShloMosaic.PureOps.Ideal
import Idealize.ShloMosaic.Lib.ValueIdx

noncomputable section

namespace Cert.KernelIdeal.Spec

open Idealize.ShloMosaic Idealize.ShloMosaic.ValueIdx Cert.KernelIdeal

/-- The float zero the clip compares against, as both programs spell it. -/
abbrev zeroF : Ideal .f32 := FloatOps.ofBits .f32 0x00000000#32

/-- Entry (r, j) of `max((agg · ni) W + b, 0)`: row `r` of `agg` scaled by that row's factor, against column `j` of
    `W`, plus `b j`, clipped below at zero. -/
def convAt (agg : FVec Ideal S50000x128 .f32) (ni : FVec Ideal S50000x1 .f32) (W : FVec Ideal S128x128 .f32)
    (b : FVec Ideal S1x128 .f32) (r : Fin 50000) (j : Fin 128) : Ideal .f32 :=
  max ((∑ k : Fin 128, (agg (ix2 r k) * ni (ix2 r (0 : Fin 1))) * W (ix2 k j)) + b (ix2 (0 : Fin 1) j)) zeroF

/-- The second layer's dense half on all rows. -/
def convPlain (agg : FVec Ideal S50000x128 .f32) (ni : FVec Ideal S50000x1 .f32) (W : FVec Ideal S128x128 .f32)
    (b : FVec Ideal S1x128 .f32) : FVec Ideal S50000x128 .f32 :=
  fun i => convAt agg ni W b ⟨(i 0).val, (i 0).isLt⟩ ⟨(i 1).val, (i 1).isLt⟩

/-- The first layer's dense half on all rows: the same, each row then scaled by the next layer's factor `no r`. -/
def convScaled (agg : FVec Ideal S50000x128 .f32) (ni : FVec Ideal S50000x1 .f32) (W : FVec Ideal S128x128 .f32)
    (b : FVec Ideal S1x128 .f32) (no : FVec Ideal S50000x1 .f32) : FVec Ideal S50000x128 .f32 :=
  fun i => convAt agg ni W b ⟨(i 0).val, (i 0).isLt⟩ ⟨(i 1).val, (i 1).isLt⟩ * no (ix2 (⟨(i 0).val, (i 0).isLt⟩ : Fin 50000) (0 : Fin 1))

/-- Entry (g, j) of the classifier `p Wf + bf`. -/
def fcAt (p : FVec Ideal S512x128 .f32) (W : FVec Ideal S128x16 .f32) (b : FVec Ideal S1x16 .f32)
    (g : Fin 512) (j : Fin 16) : Ideal .f32 :=
  (∑ k : Fin 128, p (ix2 g k) * W (ix2 k j)) + b (ix2 (0 : Fin 1) j)

/-- The classifier on all graphs. -/
def fcOut (p : FVec Ideal S512x128 .f32) (W : FVec Ideal S128x16 .f32) (b : FVec Ideal S1x16 .f32) :
    FVec Ideal S512x16 .f32 :=
  fun i => fcAt p W b ⟨(i 0).val, (i 0).isLt⟩ ⟨(i 1).val, (i 1).isLt⟩

theorem convPlain_ix2 (agg : FVec Ideal S50000x128 .f32) (ni : FVec Ideal S50000x1 .f32) (W : FVec Ideal S128x128 .f32)
    (b : FVec Ideal S1x128 .f32) (r : Fin 50000) (j : Fin 128) :
    convPlain agg ni W b (ix2 r j) = convAt agg ni W b r j := rfl

theorem convScaled_ix2 (agg : FVec Ideal S50000x128 .f32) (ni : FVec Ideal S50000x1 .f32) (W : FVec Ideal S128x128 .f32)
    (b : FVec Ideal S1x128 .f32) (no : FVec Ideal S50000x1 .f32) (r : Fin 50000) (j : Fin 128) :
    convScaled agg ni W b no (ix2 r j) = convAt agg ni W b r j * no (ix2 r (0 : Fin 1)) := rfl

theorem fcOut_ix2 (p : FVec Ideal S512x128 .f32) (W : FVec Ideal S128x16 .f32) (b : FVec Ideal S1x16 .f32)
    (g : Fin 512) (j : Fin 16) : fcOut p W b (ix2 g j) = fcAt p W b g j := rfl

end Cert.KernelIdeal.Spec

end
-- ==== Proof.Region0.lean ====
/- The first layer's dense half, read off the pipeline's write-backs: after the ten grid points the output array holds `Spec.convScaled` of the arrays the region was entered with. -/
import proofs.«402149_j41214506172827_3_alg».proof.Proof.Gen.KernelIdeal.Frame
import proofs.«402149_j41214506172827_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.KernelIdeal.Spec

variable (V : (c : Dev nD) → (b : Ref sig .tc) → Buf (Elt Ideal) ((c : Thread nD τ).loc b))

/-! ## The matrix product of one block at an entry -/

/-- The product's left operand is read at the output's row … -/
theorem lhs_blockdot_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and at the contraction index as its column; -/
theorem lhs_blockdot_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- the right operand at the contraction index as its row … -/
theorem rhs_blockdot_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- … and at the output's column. -/
theorem rhs_blockdot_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A [5000,128] block times a [128,128] matrix into the zero accumulator, at entry (p, q): row p against column q. -/
theorem blockdot_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_blockdot_0 _ _
    | ⟨1, _⟩ => exact (lhs_blockdot_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_blockdot_0 _ _).trans hk
    | ⟨1, _⟩ => exact rhs_blockdot_1 _ _)
  rw [el, er]

/-- A column [5000,1] broadcast over 128 lanes reads, at (p, q), the column at row p. -/
theorem col_bcast_apply {α : Type} (v : S5000x1.Idx → α) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ =>
    show p.val = if (5000 : ℕ) = 1 then 0 else p.val
    rw [if_neg (by decide)]
  | ⟨1, _⟩ => rfl

/-- The body's arithmetic at entry (p, q) of its block: row p of the features scaled by that row's first factor, against
    column q of the weights, plus the bias at q, clipped below at zero, scaled by the row's second factor. -/
theorem pay_apply (x0 : Vec Ideal S5000x128 .f32) (x1 : Vec Ideal S5000x1 .f32) (x2 : Vec Ideal S128x128 .f32)
    (x3 : Vec Ideal S1x128 .f32) (x4 : Vec Ideal S5000x1 .f32) (p : Fin 5000) (q : Fin 128) :
    k0_pay1 (F := Ideal) x0 x1 x2 x3 x4 (ix2 p q)
      = max ((∑ k : Fin 128, (x0 (ix2 p k) * x1 (ix2 p (0 : Fin 1))) * x2 (ix2 k q)) + x3 (ix2 (0 : Fin 1) q)) zeroF
          * x4 (ix2 p (0 : Fin 1)) := by
  unfold k0_pay1
  rw [mulf_apply, maximumf_apply, addf_apply, broadcast_apply, blockdot_apply, col_bcast_apply, broadcastTo_1b_ab_apply]
  simp only [truncf_apply, mulf_apply, col_bcast_apply, shapeCast_self]

/-! ## The windows' blocks as rows of the arrays -/

theorem hz : (![0, 0] : Fin 2 → Nat) = fun _ => 0 := funext fun a => by fin_cases a <;> rfl

/-- The index maps over the grid: the row-blocked windows (features, both factors, the output) sit at block row t, the weights and
    the bias at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The features' block at point t is rows 5000 t … 5000 t + 4999. -/
theorem agg_block_apply (c : Dev nD) (t : Fin cfg0.N) (p : Fin 5000) (k : Fin 128) (r : Fin 50000) (hr : r.val = t.val * 5000 + p.val) :
    (iblk0 V c 0 t : Vec Ideal S5000x128 .f32) (ix2 p k) = (V c main_v32 : S50000x128.Idx → Ideal .f32) (ix2 r k) := by
  obtain ⟨e0, e1, -⟩ := idx_facts t
  unfold iblk0
  rw [View.read_apply]
  show V c main_v32 _ = V c main_v32 _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- The first factor's block at point t is the same rows of its column. -/
theorem indeg_block_apply (c : Dev nD) (t : Fin cfg0.N) (p : Fin 5000) (r : Fin 50000) (hr : r.val = t.val * 5000 + p.val) :
    (iblk0 V c 1 t : Vec Ideal S5000x1 .f32) (ix2 p (0 : Fin 1)) = (V c main_v19 : S50000x1.Idx → Ideal .f32) (ix2 r (0 : Fin 1)) := by
  obtain ⟨-, -, e0, e1, -⟩ := idx_facts t
  unfold iblk0
  rw [View.read_apply]
  show V c main_v19 _ = V c main_v19 _
  congr 1
  funext a
  apply Fin.ext
  match a with
  | ⟨0, _⟩ => show win0_1.index t (0 : Fin 2) * 5000 + 1 * p.val = r.val; omega
  | ⟨1, _⟩ => show win0_1.index t (1 : Fin 2) * 1 + 1 * (0 : Fin 1).val = (0 : Fin 1).val; omega

/-- The weights' block is the whole matrix at every point. -/
theorem weight_block_apply (c : Dev nD) (t : Fin cfg0.N) (k q : Fin 128) :
    (iblk0 V c 2 t : Vec Ideal S128x128 .f32) (ix2 k q) = (V c main_arg1 : S128x128.Idx → Ideal .f32) (ix2 k q) := by
  obtain ⟨-, -, -, -, e0, e1, -⟩ := idx_facts t
  unfold iblk0
  rw [View.read_apply]
  show V c main_arg1 _ = V c main_arg1 _
  congr 1
  funext a
  apply Fin.ext
  match a with
  | ⟨0, _⟩ => show win0_2.index t (0 : Fin 2) * 128 + 1 * k.val = k.val; omega
  | ⟨1, _⟩ => show win0_2.index t (1 : Fin 2) * 128 + 1 * q.val = q.val; omega

/-- The bias's block is the whole row at every point. -/
theorem bias_block_apply (c : Dev nD) (t : Fin cfg0.N) (q : Fin 128) :
    (iblk0 V c 3 t : Vec Ideal S1x128 .f32) (ix2 (0 : Fin 1) q) = (V c main_v33 : S1x128.Idx → Ideal .f32) (ix2 (0 : Fin 1) q) := by
  obtain ⟨-, -, -, -, -, -, e0, e1, -⟩ := idx_facts t
  unfold iblk0
  rw [View.read_apply]
  show V c main_v33 _ = V c main_v33 _
  congr 1
  funext a
  apply Fin.ext
  match a with
  | ⟨0, _⟩ => show win0_3.index t (0 : Fin 2) * 1 + 1 * (0 : Fin 1).val = (0 : Fin 1).val; omega
  | ⟨1, _⟩ => show win0_3.index t (1 : Fin 2) * 128 + 1 * q.val = q.val; omega

/-- The second factor's block at point t is rows 5000 t … 5000 t + 4999 of its column. -/
theorem outdeg_block_apply (c : Dev nD) (t : Fin cfg0.N) (p : Fin 5000) (r : Fin 50000) (hr : r.val = t.val * 5000 + p.val) :
    (iblk0 V c 4 t : Vec Ideal S5000x1 .f32) (ix2 p (0 : Fin 1)) = (V c main_v20 : S50000x1.Idx → Ideal .f32) (ix2 r (0 : Fin 1)) := by
  obtain ⟨-, -, -, -, -, -, -, -, e0, e1, -⟩ := idx_facts t
  unfold iblk0
  rw [View.read_apply]
  show V c main_v20 _ = V c main_v20 _
  congr 1
  funext a
  apply Fin.ext
  match a with
  | ⟨0, _⟩ => show win0_4.index t (0 : Fin 2) * 5000 + 1 * p.val = r.val; omega
  | ⟨1, _⟩ => show win0_4.index t (1 : Fin 2) * 1 + 1 * (0 : Fin 1).val = (0 : Fin 1).val; omega

/-- A whole-array function read through the output's block at point t: entry (p, q) of the block is entry (5000 t + p, q). -/
theorem out_block_apply (G : FVec Ideal S50000x128 .f32) (t : Fin cfg0.N) (p : Fin 5000) (q : Fin 128) (r : Fin 50000)
    (hr : r.val = t.val * 5000 + p.val) :
    (((cfg0.win 5).blk t).view.read (Elt Ideal) G : Vec Ideal S5000x128 .f32) (ix2 p q) = G (ix2 r q) := by
  obtain ⟨-, -, -, -, -, -, -, -, -, -, e0, e1⟩ := idx_facts t
  rw [View.read_apply]
  show G _ = G _
  congr 1
  funext a
  apply Fin.ext
  match a with
  | ⟨0, _⟩ => show win0_5.index t (0 : Fin 2) * 5000 + 1 * p.val = r.val; omega
  | ⟨1, _⟩ => show win0_5.index t (1 : Fin 2) * 128 + 1 * q.val = q.val; omega

/-! ## What a point writes back, and the array after the last -/

/-- Point t writes back block t of the layer's function of the arrays the region was entered with. -/
theorem flushed_eq (c : Dev nD) (t : Fin cfg0.N) :
    (dat0 (F := Ideal) V c).flushed 5 t
      = ((cfg0.win 5).blk t).view.read (Elt Ideal) (convScaled (V c main_v32) (V c main_v19) (V c main_arg1) (V c main_v33) (V c main_v20)) := by
  show (cfg0.win 5).cut (grid0.coords t) ((dat0 V c).after 5 t) = _
  rw [after0_5]
  unfold out0_5
  rw [View.canon_unit_zero hz]
  simp only [View.ld_unit_zero (S := S5000x128) hz, View.ld_unit_zero (S := S5000x1) hz, View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 10 := lt_of_lt_of_eq t.isLt N_0
  have hr : (⟨t.val * 5000 + p.val, by omega⟩ : Fin 50000).val = t.val * 5000 + p.val := rfl
  show k0_pay1 (F := Ideal) (iblk0 V c 0 t) (iblk0 V c 1 t) (iblk0 V c 2 t) (iblk0 V c 3 t) (iblk0 V c 4 t) (ix2 p q) = _
  refine (pay_apply (iblk0 V c 0 t) (iblk0 V c 1 t) (iblk0 V c 2 t) (iblk0 V c 3 t) (iblk0 V c 4 t) p q).trans ?_
  refine Eq.trans ?_ (out_block_apply (convScaled (V c main_v32) (V c main_v19) (V c main_arg1) (V c main_v33) (V c main_v20)) t p q _ hr).symm
  rw [convScaled_ix2, indeg_block_apply V c t p _ hr, bias_block_apply V c t q, outdeg_block_apply V c t p _ hr]
  unfold convAt
  refine congrArg (fun s => max (s + _) zeroF * _) (Finset.sum_congr rfl fun k _ => ?_)
  rw [agg_block_apply V c t p k _ hr, weight_block_apply V c t k q]

/-- An index of the array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v34).slice (win0_5.rect t)).set ↔ _
  rw [View.set_slice_whole, Rect.mem_set_unit]
  exact Iff.rfl

/-- Every row lies in the block of the point its number over 5000 names, and every point writes back. -/
theorem cover (i : S50000x128.Idx) : ∃ t : Fin cfg0.N, (cfg0.win 5).flush t = true ∧ i ∈ ((cfg0.win 5).blk t).view.set := by
  have hi0 : (i 0).val < 50000 := (i 0).isLt
  have hi1 : (i 1).val < 128 := (i 1).isLt
  have ht : (i 0).val / 5000 < cfg0.N := lt_of_lt_of_eq (by omega) N_0.symm
  obtain ⟨-, -, -, -, -, -, -, -, -, -, e0, e1⟩ := idx_facts ⟨(i 0).val / 5000, ht⟩
  refine ⟨⟨(i 0).val / 5000, ht⟩, flush0_5 _, ?_⟩
  rw [mem_blk]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    rw [e1]
    omega

theorem final (c : Dev nD) :
    (dat0 (F := Ideal) V c).arrAt 5 cfg0.N = convScaled (V c main_v32) (V c main_v19) (V c main_arg1) (V c main_v33) (V c main_v20) :=
  (dat0 V c).arrAt_eq_of_cover 5 (convScaled (V c main_v32) (V c main_v19) (V c main_arg1) (V c main_v33) (V c main_v20))
    (fun t _ => flushed_eq V c t) cover

end Cert.KernelIdeal.Region0

end
-- ==== Proof.Region1.lean ====
/- The second layer's dense half, read off the pipeline's write-backs: after the ten grid points the output array holds `Spec.convPlain` of the arrays the region was entered with. -/
import proofs.«402149_j41214506172827_3_alg».proof.Proof.Gen.KernelIdeal.Frame
import proofs.«402149_j41214506172827_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.KernelIdeal.Spec

variable (V : (c : Dev nD) → (b : Ref sig .tc) → Buf (Elt Ideal) ((c : Thread nD τ).loc b))

/-! ## One block's matrix product read at an entry -/

/-- On the left operand's row axis the product reads the output's row … -/
theorem lhs_row (i : S5000x128.Idx) (κ : dot_S5000x128_S128x128_S5000x128_1_0_0_1_n_n.contr.Idx) :
    (dot_S5000x128_S128x128_S5000x128_1_0_0_1_n_n.lhsIdx i κ 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- … and on its column axis the summation index; -/
theorem lhs_col (i : S5000x128.Idx) (κ : dot_S5000x128_S128x128_S5000x128_1_0_0_1_n_n.contr.Idx) :
    (dot_S5000x128_S128x128_S5000x128_1_0_0_1_n_n.lhsIdx i κ 1).val = (κ ⟨0, by decide⟩).val :=
  dot_S5000x128_S128x128_S5000x128_1_0_0_1_n_n.lhsIdx_val_of_single rfl i κ
/-- on the right operand's row axis the summation index … -/
theorem rhs_row (i : S5000x128.Idx) (κ : dot_S5000x128_S128x128_S5000x128_1_0_0_1_n_n.contr.Idx) :
    (dot_S5000x128_S128x128_S5000x128_1_0_0_1_n_n.rhsIdx i κ 0).val = (κ ⟨0, by decide⟩).val :=
  dot_S5000x128_S128x128_S5000x128_1_0_0_1_n_n.rhsIdx_val_of_single rfl i κ
/-- … and on its column axis the output's column. -/
theorem rhs_col (i : S5000x128.Idx) (κ : dot_S5000x128_S128x128_S5000x128_1_0_0_1_n_n.contr.Idx) :
    (dot_S5000x128_S128x128_S5000x128_1_0_0_1_n_n.rhsIdx i κ 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a [5000,128] block times a [128,128] matrix, accumulated from zero: the sum over k of the block's
    (p, k) times the matrix's (k, q). -/
theorem product_apply (a : FVec Ideal S5000x128 .bf16) (w : FVec Ideal S128x128 .bf16) (p : Fin 5000) (q : Fin 128) :
    matmul dot_S5000x128_S128x128_S5000x128_1_0_0_1_n_n none a w (constant (F := Ideal) S5000x128 .f32 0x00000000#32) (ix2 p q)
      = ∑ k : Fin 128, a (ix2 p k) * w (ix2 k q) := by
  refine (Ideal.matmul_constant_zero_apply dot_S5000x128_S128x128_S5000x128_1_0_0_1_n_n none a w (ix2 p q)).trans ?_
  rw [← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs_row _ _
    | ⟨1, _⟩ => exact (lhs_col _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The row factor's column [5000,1] spread over the 128 lanes: at (p, q) it is the factor of row p. -/
theorem factor_spread_apply {α : Type} (v : S5000x1.Idx → α) (h : S5000x1.Broadcasts S5000x128) (p : Fin 5000) (q : Fin 128) :
    broadcastTo S5000x128 v h (ix2 p q) = v (ix2 p (0 : Fin 1)) := by
  refine broadcastTo_apply v h (ix2 p q) (ix2 p (0 : Fin 1)) fun ax => ?_
  match ax with
  | ⟨0, _⟩ =>
    show p.val = if (5000 : ℕ) = 1 then 0 else p.val
    rw [if_neg (by decide)]
  | ⟨1, _⟩ => rfl

/-- The second layer's body at entry (p, q) of its block: row p of the features scaled by that row's factor, against
    column q of the weights, plus the bias at q, clipped below at zero. -/
theorem body_apply (x0 : Vec Ideal S5000x128 .f32) (x1 : Vec Ideal S5000x1 .f32) (x2 : Vec Ideal S128x128 .f32)
    (x3 : Vec Ideal S1x128 .f32) (p : Fin 5000) (q : Fin 128) :
    k1_pay1 (F := Ideal) x0 x1 x2 x3 (ix2 p q)
      = max ((∑ k : Fin 128, (x0 (ix2 p k) * x1 (ix2 p (0 : Fin 1))) * x2 (ix2 k q)) + x3 (ix2 (0 : Fin 1) q)) zeroF := by
  unfold k1_pay1
  rw [maximumf_apply, addf_apply, broadcast_apply, product_apply, broadcastTo_1b_ab_apply]
  simp only [truncf_apply, mulf_apply, factor_spread_apply, shapeCast_self]

/-! ## Each window's block inside its array -/

theorem zeros : (![0, 0] : Fin 2 → Nat) = fun _ => 0 := funext fun a => by fin_cases a <;> rfl

/-- Where the blocks sit, decided over the ten points: features, factor and output at block row t; weights and bias at their
    only block. -/
theorem where_blocks : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Entry (p, k) of the features' block at point t is entry (5000 t + p, k) of the features. -/
theorem features_at (c : Dev nD) (t : Fin cfg1.N) (p : Fin 5000) (k : Fin 128) (r : Fin 50000) (hr : r.val = t.val * 5000 + p.val) :
    (iblk1 V c 0 t : Vec Ideal S5000x128 .f32) (ix2 p k) = (V c main_v44 : S50000x128.Idx → Ideal .f32) (ix2 r k) := by
  obtain ⟨e0, e1, -⟩ := where_blocks t
  unfold iblk1
  rw [View.read_apply]
  show V c main_v44 _ = V c main_v44 _
  congr 1
  funext a
  apply Fin.ext
  match a with
  | ⟨0, _⟩ => show win1_0.index t (0 : Fin 2) * 5000 + 1 * p.val = r.val; omega
  | ⟨1, _⟩ => show win1_0.index t (1 : Fin 2) * 128 + 1 * k.val = k.val; omega

/-- Entry p of the factor's block at point t is entry 5000 t + p of the factor's column. -/
theorem factor_at (c : Dev nD) (t : Fin cfg1.N) (p : Fin 5000) (r : Fin 50000) (hr : r.val = t.val * 5000 + p.val) :
    (iblk1 V c 1 t : Vec Ideal S5000x1 .f32) (ix2 p (0 : Fin 1)) = (V c main_v19 : S50000x1.Idx → Ideal .f32) (ix2 r (0 : Fin 1)) := by
  obtain ⟨-, -, e0, e1, -⟩ := where_blocks t
  unfold iblk1
  rw [View.read_apply]
  show V c main_v19 _ = V c main_v19 _
  congr 1
  funext a
  apply Fin.ext
  match a with
  | ⟨0, _⟩ => show win1_1.index t (0 : Fin 2) * 5000 + 1 * p.val = r.val; omega
  | ⟨1, _⟩ => show win1_1.index t (1 : Fin 2) * 1 + 1 * (0 : Fin 1).val = (0 : Fin 1).val; omega

/-- The weights' block is the weight matrix, at every point. -/
theorem weights_at (c : Dev nD) (t : Fin cfg1.N) (k q : Fin 128) :
    (iblk1 V c 2 t : Vec Ideal S128x128 .f32) (ix2 k q) = (V c main_arg3 : S128x128.Idx → Ideal .f32) (ix2 k q) := by
  obtain ⟨-, -, -, -, e0, e1, -⟩ := where_blocks t
  unfold iblk1
  rw [View.read_apply]
  show V c main_arg3 _ = V c main_arg3 _
  congr 1
  funext a
  apply Fin.ext
  match a with
  | ⟨0, _⟩ => show win1_2.index t (0 : Fin 2) * 128 + 1 * k.val = k.val; omega
  | ⟨1, _⟩ => show win1_2.index t (1 : Fin 2) * 128 + 1 * q.val = q.val; omega

/-- The bias's block is the bias row, at every point. -/
theorem bias_at (c : Dev nD) (t : Fin cfg1.N) (q : Fin 128) :
    (iblk1 V c 3 t : Vec Ideal S1x128 .f32) (ix2 (0 : Fin 1) q) = (V c main_v45 : S1x128.Idx → Ideal .f32) (ix2 (0 : Fin 1) q) := by
  obtain ⟨-, -, -, -, -, -, e0, e1, -⟩ := where_blocks t
  unfold iblk1
  rw [View.read_apply]
  show V c main_v45 _ = V c main_v45 _
  congr 1
  funext a
  apply Fin.ext
  match a with
  | ⟨0, _⟩ => show win1_3.index t (0 : Fin 2) * 1 + 1 * (0 : Fin 1).val = (0 : Fin 1).val; omega
  | ⟨1, _⟩ => show win1_3.index t (1 : Fin 2) * 128 + 1 * q.val = q.val; omega

/-- A function of the whole output array read through the output's block at point t: the block's (p, q) is the array's
    (5000 t + p, q). -/
theorem result_at (G : FVec Ideal S50000x128 .f32) (t : Fin cfg1.N) (p : Fin 5000) (q : Fin 128) (r : Fin 50000)
    (hr : r.val = t.val * 5000 + p.val) :
    (((cfg1.win 4).blk t).view.read (Elt Ideal) G : Vec Ideal S5000x128 .f32) (ix2 p q) = G (ix2 r q) := by
  obtain ⟨-, -, -, -, -, -, -, -, e0, e1⟩ := where_blocks t
  rw [View.read_apply]
  show G _ = G _
  congr 1
  funext a
  apply Fin.ext
  match a with
  | ⟨0, _⟩ => show win1_4.index t (0 : Fin 2) * 5000 + 1 * p.val = r.val; omega
  | ⟨1, _⟩ => show win1_4.index t (1 : Fin 2) * 128 + 1 * q.val = q.val; omega

/-! ## The write-backs and the array they leave -/

/-- What point t writes back is block t of the second layer's function of the arrays the region was entered with. -/
theorem written_back (c : Dev nD) (t : Fin cfg1.N) :
    (dat1 (F := Ideal) V c).flushed 4 t
      = ((cfg1.win 4).blk t).view.read (Elt Ideal) (convPlain (V c main_v44) (V c main_v19) (V c main_arg3) (V c main_v45)) := by
  show (cfg1.win 4).cut (grid1.coords t) ((dat1 V c).after 4 t) = _
  rw [after1_4]
  unfold out1_4
  rw [View.canon_unit_zero zeros]
  simp only [View.ld_unit_zero (S := S5000x128) zeros, View.ld_unit_zero (S := S5000x1) zeros, View.ld_unit_zero (S := S128x128) zeros, View.ld_unit_zero (S := S1x128) zeros]
  funext j
  obtain ⟨p, q, rfl⟩ : ∃ (p : Fin 5000) (q : Fin 128), j = ix2 p q := ⟨j 0, j 1, eq_ix2 j⟩
  have ht : t.val < 10 := lt_of_lt_of_eq t.isLt N_1
  have hr : (⟨t.val * 5000 + p.val, by omega⟩ : Fin 50000).val = t.val * 5000 + p.val := rfl
  show k1_pay1 (F := Ideal) (iblk1 V c 0 t) (iblk1 V c 1 t) (iblk1 V c 2 t) (iblk1 V c 3 t) (ix2 p q) = _
  refine (body_apply (iblk1 V c 0 t) (iblk1 V c 1 t) (iblk1 V c 2 t) (iblk1 V c 3 t) p q).trans ?_
  refine Eq.trans ?_ (result_at (convPlain (V c main_v44) (V c main_v19) (V c main_arg3) (V c main_v45)) t p q _ hr).symm
  rw [convPlain_ix2, factor_at V c t p _ hr, bias_at V c t q]
  unfold convAt
  refine congrArg (fun s => max (s + _) zeroF) (Finset.sum_congr rfl fun k _ => ?_)
  rw [features_at V c t p k _ hr, weights_at V c t k q]

/-- Row by row and lane by lane, when an entry of the array lies in point t's block. -/
theorem in_block_iff (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v46).slice (win1_4.rect t)).set ↔ _
  rw [View.set_slice_whole, Rect.mem_set_unit]
  exact Iff.rfl

/-- Row r is written back by point r / 5000: the ten blocks of 5000 rows fill the 50000. -/
theorem all_written (i : S50000x128.Idx) : ∃ t : Fin cfg1.N, (cfg1.win 4).flush t = true ∧ i ∈ ((cfg1.win 4).blk t).view.set := by
  have hrow : (i 0).val < 50000 := (i 0).isLt
  have hlane : (i 1).val < 128 := (i 1).isLt
  have ht : (i 0).val / 5000 < cfg1.N := lt_of_lt_of_eq (by omega) N_1.symm
  obtain ⟨-, -, -, -, -, -, -, -, e0, e1⟩ := where_blocks ⟨(i 0).val / 5000, ht⟩
  refine ⟨⟨(i 0).val / 5000, ht⟩, flush1_4 _, ?_⟩
  rw [in_block_iff]
  intro a
  match a with
  | ⟨0, _⟩ =>
    show win1_4.index ⟨(i 0).val / 5000, ht⟩ (0 : Fin 2) * 5000 ≤ (i 0).val ∧ (i 0).val < win1_4.index ⟨(i 0).val / 5000, ht⟩ (0 : Fin 2) * 5000 + 5000
    rw [e0]
    show (i 0).val / 5000 * 5000 ≤ (i 0).val ∧ (i 0).val < (i 0).val / 5000 * 5000 + 5000
    omega
  | ⟨1, _⟩ =>
    show win1_4.index ⟨(i 0).val / 5000, ht⟩ (1 : Fin 2) * 128 ≤ (i 1).val ∧ (i 1).val < win1_4.index ⟨(i 0).val / 5000, ht⟩ (1 : Fin 2) * 128 + 128
    rw [e1]
    omega

theorem final (c : Dev nD) :
    (dat1 (F := Ideal) V c).arrAt 4 cfg1.N = convPlain (V c main_v44) (V c main_v19) (V c main_arg3) (V c main_v45) :=
  (dat1 V c).arrAt_eq_of_cover 4 (convPlain (V c main_v44) (V c main_v19) (V c main_arg3) (V c main_v45))
    (fun t _ => written_back V c t) all_written

end Cert.KernelIdeal.Region1

end
-- ==== Proof.Region2.lean ====
/- The classifier, read off the pipeline's one write-back: the result array holds `Spec.fcOut` of the arrays the region was entered with. -/
import proofs.«402149_j41214506172827_3_alg».proof.Proof.Gen.KernelIdeal.Frame
import proofs.«402149_j41214506172827_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.KernelIdeal.Spec

/-! ## The matrix product at an entry

The product contracts the left operand's axis 1 against the right operand's axis 0, so entry (p, q) pairs row p of
the left with column q of the right, over the 128 values of the contracted coordinate. -/

/-- The left operand's row is the result's row. -/
theorem mm_lhs_0 (i : S512x16.Idx) (q : dot_S512x128_S128x16_S512x16_1_0_0_1_n_n.contr.Idx) :
    (dot_S512x128_S128x16_S512x16_1_0_0_1_n_n.lhsIdx i q 0).val = (i 0).val := by
  unfold DotDims.lhsIdx
  rw [dif_neg (show ¬(0 : Fin S512x128.rank) ∈ dot_S512x128_S128x16_S512x16_1_0_0_1_n_n.lhsBatch by decide), dif_pos (show (0 : Fin S512x128.rank) ∈ dot_S512x128_S128x16_S512x16_1_0_0_1_n_n.lhsNonContracting by decide)]
  rfl
/-- The left operand's column is the contracted coordinate. -/
theorem mm_lhs_1 (i : S512x16.Idx) (q : dot_S512x128_S128x16_S512x16_1_0_0_1_n_n.contr.Idx) :
    (dot_S512x128_S128x16_S512x16_1_0_0_1_n_n.lhsIdx i q 1).val = (q ⟨0, by decide⟩).val :=
  dot_S512x128_S128x16_S512x16_1_0_0_1_n_n.lhsIdx_val_of_single rfl i q
/-- The right operand's row is the contracted coordinate. -/
theorem mm_rhs_0 (i : S512x16.Idx) (q : dot_S512x128_S128x16_S512x16_1_0_0_1_n_n.contr.Idx) :
    (dot_S512x128_S128x16_S512x16_1_0_0_1_n_n.rhsIdx i q 0).val = (q ⟨0, by decide⟩).val :=
  dot_S512x128_S128x16_S512x16_1_0_0_1_n_n.rhsIdx_val_of_single rfl i q
/-- The right operand's column is the result's column. -/
theorem mm_rhs_1 (i : S512x16.Idx) (q : dot_S512x128_S128x16_S512x16_1_0_0_1_n_n.contr.Idx) :
    (dot_S512x128_S128x16_S512x16_1_0_0_1_n_n.rhsIdx i q 1).val = (i 1).val := by
  unfold DotDims.rhsIdx
  rw [dif_neg (show ¬(1 : Fin S128x16.rank) ∈ dot_S512x128_S128x16_S512x16_1_0_0_1_n_n.rhsBatch by decide), dif_pos (show (1 : Fin S128x16.rank) ∈ dot_S512x128_S128x16_S512x16_1_0_0_1_n_n.rhsNonContracting by decide)]
  rfl

/-- Entry (p, q) of the product into the zero accumulator: the sum over k of left (p, k) times right (k, q). -/
theorem matmul_entry {φ₁ φ₂ : FTy} (a : FVec Ideal S512x128 φ₁) (b : FVec Ideal S128x16 φ₂) (p : Fin 512) (q : Fin 16) :
    matmul dot_S512x128_S128x16_S512x16_1_0_0_1_n_n none a b (constant (F := Ideal) S512x16 .f32 0x00000000#32) (ix2 p q)
      = ∑ k : Fin 128, a (ix2 p k) * b (ix2 k q) := by
  refine (Ideal.matmul_constant_zero_apply dot_S512x128_S128x16_S512x16_1_0_0_1_n_n none a b (ix2 p q)).trans ?_
  rw [← Equiv.sum_comp (ValueIdx.contrEquiv1 dot_S512x128_S128x16_S512x16_1_0_0_1_n_n 128 rfl rfl).symm]
  refine Finset.sum_congr rfl fun k _ => ?_
  have hk := ValueIdx.contrEquiv1_symm_val dot_S512x128_S128x16_S512x16_1_0_0_1_n_n 128 rfl rfl k
  have el : dot_S512x128_S128x16_S512x16_1_0_0_1_n_n.lhsIdx (ix2 p q) ((ValueIdx.contrEquiv1 dot_S512x128_S128x16_S512x16_1_0_0_1_n_n 128 rfl rfl).symm k) = ix2 p k := funext fun ax => Fin.ext (by
    match ax with
    | ⟨0, _⟩ => exact mm_lhs_0 _ _
    | ⟨1, _⟩ => exact (mm_lhs_1 _ _).trans hk)
  have er : dot_S512x128_S128x16_S512x16_1_0_0_1_n_n.rhsIdx (ix2 p q) ((ValueIdx.contrEquiv1 dot_S512x128_S128x16_S512x16_1_0_0_1_n_n 128 rfl rfl).symm k) = ix2 k q := funext fun ax => Fin.ext (by
    match ax with
    | ⟨0, _⟩ => exact (mm_rhs_0 _ _).trans hk
    | ⟨1, _⟩ => exact mm_rhs_1 _ _)
  rw [el, er]

/-! ## The body's arithmetic at an entry

The two shape casts are to the same shape, the narrowing of the operands changes no extended real, so entry (p, q) of
what the body stores is row p of the features against column q of the weights, plus the bias row at q. -/

set_option maxHeartbeats 400000 in
theorem payload_entry (x0 : Vec Ideal S512x128 .f32) (x1 : Vec Ideal S128x16 .f32) (x2 : Vec Ideal S1x16 .f32)
    (p : Fin 512) (q : Fin 16) :
    k2_pay1 (F := Ideal) x0 x1 x2 (ix2 p q) = fcAt x0 x1 x2 p q := by
  unfold k2_pay1
  have e0 : shapeCast S512x128 x0 shapeCasts_S512x128_S512x128 = x0 := shapeCast_self x0 _
  have e2 : shapeCast S1x16 x2 shapeCasts_S1x16_S1x16 = x2 := shapeCast_self x2 _
  rw [e0, e2]
  refine (addf_apply _ _ (ix2 p q)).trans ?_
  unfold fcAt
  refine congrArg₂ (· + ·) ?_ ?_
  · exact matmul_entry (truncf .bf16 x0 bitsLt_bf16_f32) (truncf .bf16 x1 bitsLt_bf16_f32) p q
  · exact broadcastTo_1b_ab_apply x2 broadcasts_S1x16_S512x16 p q

/-! ## Each block is its whole array

The grid has one point and every window's block index is 0 on both axes there, so a block's coordinate is the
array's coordinate. -/

theorem zero_off : (![0, 0] : Fin 2 → Nat) = fun _ => 0 := funext fun a => by fin_cases a <;> rfl

/-- The index maps at every grid point: block (0, 0) for each of the four windows. -/
theorem blk_index : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

variable (V : (c : Dev nD) → (b : Ref sig .tc) → Buf (Elt Ideal) ((c : Thread nD τ).loc b))

set_option maxHeartbeats 400000 in
/-- The pooled features' block at an entry is the array's entry. -/
theorem feat_blk (c : Dev nD) (t : Fin cfg2.N) (p : Fin 512) (k : Fin 128) :
    (iblk2 (F := Ideal) V c 0 t : Vec Ideal S512x128 .f32) (ix2 p k)
      = (V c main_v58 : S512x128.Idx → Elt Ideal .f32) (ix2 p k) := by
  obtain ⟨e0, e1, -⟩ := blk_index t
  unfold iblk2
  rw [View.read_apply]
  show V c main_v58 (((cfg2.win 0).blk t).view.emb (ix2 p k)) = V c main_v58 (ix2 p k)
  refine congrArg (V c main_v58) ?_
  funext a; apply Fin.ext
  match a with
  | ⟨0, _⟩ => show win2_0.index t (0 : Fin 2) * 512 + 1 * p.val = p.val; omega
  | ⟨1, _⟩ => show win2_0.index t (1 : Fin 2) * 128 + 1 * k.val = k.val; omega

set_option maxHeartbeats 400000 in
/-- The weights' block at an entry is the array's entry. -/
theorem wgt_blk (c : Dev nD) (t : Fin cfg2.N) (k : Fin 128) (q : Fin 16) :
    (iblk2 (F := Ideal) V c 1 t : Vec Ideal S128x16 .f32) (ix2 k q)
      = (V c main_arg5 : S128x16.Idx → Elt Ideal .f32) (ix2 k q) := by
  obtain ⟨-, -, e0, e1, -⟩ := blk_index t
  unfold iblk2
  rw [View.read_apply]
  show V c main_arg5 (((cfg2.win 1).blk t).view.emb (ix2 k q)) = V c main_arg5 (ix2 k q)
  refine congrArg (V c main_arg5) ?_
  funext a; apply Fin.ext
  match a with
  | ⟨0, _⟩ => show win2_1.index t (0 : Fin 2) * 128 + 1 * k.val = k.val; omega
  | ⟨1, _⟩ => show win2_1.index t (1 : Fin 2) * 16 + 1 * q.val = q.val; omega

set_option maxHeartbeats 400000 in
/-- The bias row's block at an entry is the array's entry. -/
theorem bias_blk (c : Dev nD) (t : Fin cfg2.N) (q : Fin 16) :
    (iblk2 (F := Ideal) V c 2 t : Vec Ideal S1x16 .f32) (ix2 (0 : Fin 1) q)
      = (V c main_v59 : S1x16.Idx → Elt Ideal .f32) (ix2 (0 : Fin 1) q) := by
  obtain ⟨-, -, -, -, e0, e1, -⟩ := blk_index t
  unfold iblk2
  rw [View.read_apply]
  show V c main_v59 (((cfg2.win 2).blk t).view.emb (ix2 (0 : Fin 1) q)) = V c main_v59 (ix2 (0 : Fin 1) q)
  refine congrArg (V c main_v59) ?_
  funext a; apply Fin.ext
  match a with
  | ⟨0, _⟩ => show win2_2.index t (0 : Fin 2) * 1 + 1 * (0 : Fin 1).val = (0 : Fin 1).val; omega
  | ⟨1, _⟩ => show win2_2.index t (1 : Fin 2) * 16 + 1 * q.val = q.val; omega

/-! ## What the one point writes back -/

set_option maxHeartbeats 400000 in
/-- Entry (p, q) of the body's store, from the blocks the point holds: the classifier of the whole arrays there. -/
theorem stored_entry (c : Dev nD) (t : Fin cfg2.N) (p : Fin 512) (q : Fin 16) :
    k2_pay1 (F := Ideal) (iblk2 (F := Ideal) V c 0 t) (iblk2 (F := Ideal) V c 1 t) (iblk2 (F := Ideal) V c 2 t) (ix2 p q)
      = fcAt (V c main_v58) (V c main_arg5) (V c main_v59) p q := by
  refine (payload_entry (iblk2 (F := Ideal) V c 0 t) (iblk2 (F := Ideal) V c 1 t) (iblk2 (F := Ideal) V c 2 t) p q).trans ?_
  unfold fcAt
  refine congrArg₂ (· + ·) (Finset.sum_congr rfl fun k _ => ?_) (bias_blk V c t q)
  exact congrArg₂ (· * ·) (feat_blk V c t p k) (wgt_blk V c t k q)

set_option maxHeartbeats 400000 in
/-- The result's block at the point sits at the array's own coordinates. -/
theorem out_emb (t : Fin cfg2.N) (p : Fin 512) (q : Fin 16) :
    ((cfg2.win 3).blk t).view.emb (ix2 p q) = (ix2 p q : S512x16.Idx) := by
  obtain ⟨-, -, -, -, -, -, e0, e1⟩ := blk_index t
  funext a; apply Fin.ext
  match a with
  | ⟨0, _⟩ => show win2_3.index t (0 : Fin 2) * 512 + 1 * p.val = p.val; omega
  | ⟨1, _⟩ => show win2_3.index t (1 : Fin 2) * 16 + 1 * q.val = q.val; omega

set_option maxHeartbeats 400000 in
/-- What the point writes back is its block of the classifier of the arrays the region was entered with. -/
theorem flushed_eq (c : Dev nD) (t : Fin cfg2.N) :
    (dat2 (F := Ideal) V c).flushed 3 t
      = ((cfg2.win 3).blk t).view.read (Elt Ideal) (fcOut (V c main_v58) (V c main_arg5) (V c main_v59)) := by
  show (cfg2.win 3).cut (grid2.coords t) ((dat2 (F := Ideal) V c).after 3 t) = _
  rw [after2_3]
  unfold out2_3
  rw [View.canon_unit_zero zero_off]
  simp only [View.ld_unit_zero (S := S512x128) zero_off, View.ld_unit_zero (S := S128x16) zero_off, View.ld_unit_zero (S := S1x16) zero_off]
  funext j
  obtain ⟨p, q, rfl⟩ : ∃ (p : Fin 512) (q : Fin 16), j = ix2 p q := ⟨j 0, j 1, eq_ix2 j⟩
  have hx : (win2 3).xinj (grid2.coords t) (ix2 p q) = (ix2 p q : S512x16.Idx) :=
    funext fun a => Fin.ext (by match a with | ⟨0, _⟩ => rfl | ⟨1, _⟩ => rfl)
  show k2_pay1 (F := Ideal) (iblk2 (F := Ideal) V c 0 t) (iblk2 (F := Ideal) V c 1 t) (iblk2 (F := Ideal) V c 2 t) ((win2 3).xinj (grid2.coords t) (ix2 p q))
    = fcOut (V c main_v58) (V c main_arg5) (V c main_v59) (((cfg2.win 3).blk t).view.emb (ix2 p q))
  rw [hx, out_emb t p q]
  exact stored_entry V c t p q

/-! ## The result array

The one point's block is the whole [512, 16] array, so its write-back covers every entry. -/

set_option maxHeartbeats 400000 in
/-- An entry lies in the point's block iff each coordinate lies in the block's range on its axis. -/
theorem mem_out_blk (t : Fin cfg2.N) (i : S512x16.Idx) :
    i ∈ ((cfg2.win 3).blk t).view.set
      ↔ ∀ a : Fin 2, win2_3.index t a * S512x16.size a ≤ (i a).val ∧ (i a).val < win2_3.index t a * S512x16.size a + S512x16.size a := by
  show i ∈ ((View.whole main_v60).slice (win2_3.rect t)).set ↔ _
  rw [View.set_slice_whole, Rect.mem_set_unit]
  exact Iff.rfl

set_option maxHeartbeats 400000 in
/-- Every entry of the result array is written back by the grid's point. -/
theorem out_covered (i : S512x16.Idx) :
    ∃ t : Fin cfg2.N, (cfg2.win 3).flush t = true ∧ i ∈ ((cfg2.win 3).blk t).view.set := by
  refine ⟨t2_0, flush2_3 t2_0, ?_⟩
  rw [mem_out_blk]
  obtain ⟨-, -, -, -, -, -, e0, e1⟩ := blk_index t2_0
  have h0 : (i 0).val < 512 := (i 0).isLt
  have h1 : (i 1).val < 16 := (i 1).isLt
  intro a
  match a with
  | ⟨0, _⟩ => show win2_3.index t2_0 (0 : Fin 2) * 512 ≤ (i 0).val ∧ (i 0).val < win2_3.index t2_0 (0 : Fin 2) * 512 + 512; omega
  | ⟨1, _⟩ => show win2_3.index t2_0 (1 : Fin 2) * 16 ≤ (i 1).val ∧ (i 1).val < win2_3.index t2_0 (1 : Fin 2) * 16 + 16; omega

/-- After all the region's grid points the result array is the classifier of the arrays the region was entered with. -/
theorem final (c : Dev nD) :
    (dat2 (F := Ideal) V c).arrAt 3 cfg2.N = fcOut (V c main_v58) (V c main_arg5) (V c main_v59) :=
  (dat2 (F := Ideal) V c).arrAt_eq_of_cover 3 (fcOut (V c main_v58) (V c main_arg5) (V c main_v59))
    (fun t _ => flushed_eq V c t) out_covered

end Cert.KernelIdeal.Region2

end
-- ==== Proof.Chains.lean ====
/-
  The plain array operations both programs run around their dense stretches, named once: the degree counts (a one
  added at every edge's end), the factor deg^(-1/2) where the degree is positive and 0 elsewhere, a per-node vector as
  a column and a bias as a row, the message passing step (rows gathered at the edges' sources, added at their
  destinations) and the per-graph mean; and, over them and the dense stretches of the specification, the whole
  computation as one function of the ten arguments:
      result = fc( meanPool( conv₂( aggregate( conv₁( aggregate(x · out-factor) ) ) ) ) ).
-/
import proofs.«402149_j41214506172827_3_alg».proof.Proof.Gen.KernelIdeal
import proofs.«402149_j41214506172827_3_alg».proof.Proof.Spec

noncomputable section

namespace Cert.KernelIdeal.Chains

open Idealize.ShloMosaic Cert.KernelIdeal Cert.KernelIdeal.Spec
open Cert.KernelIdeal.Facts₀ Cert.KernelIdeal.Facts

section
variable {F : FTy → Type} [FloatOps F]

/-- How many edges name each node at the given end, as a float: a one added at every edge's end. -/
def degree (e : IVec S1600000 32) : FVec F S50000 .f32 :=
  Host.scatterAdd scatter_S50000_S1600000x1_S1600000_n_0_0_1
    (broadcastInDim S50000 ![] bcast_S_S50000 (constant S_ .f32 0x00000000#32))
    (broadcastInDim S1600000x1 ![0] bcast_S1600000_S1600000x1_0 e)
    (broadcastInDim S1600000 ![] bcast_S_S1600000 (constant S_ .f32 0x3F800000#32))

/-- The normalising factor of a degree vector: `d^(-1/2)` where `d > 0`, and `0` elsewhere. -/
def invSqrt (d : FVec F S50000 .f32) : FVec F S50000 .f32 :=
  select (cmpf (F := F) .ogt d (broadcastInDim S50000 ![] bcast_S_S50000 (constant S_ .f32 0x00000000#32)))
    (Host.rsqrt (maximumf d (broadcastInDim S50000 ![] bcast_S_S50000 (constant S_ .f32 0x3F800000#32))))
    (broadcastInDim S50000 ![] bcast_S_S50000 (id (constant S_ .f32 0x00000000#32)))

/-- A per-node vector laid out as one column. -/
def column (v : FVec F S50000 .f32) : FVec F S50000x1 .f32 := shapeCast S50000x1 v shapeCasts_S50000_S50000x1
/-- A bias laid out as one row. -/
def row128 (b : FVec F S128 .f32) : FVec F S1x128 .f32 := shapeCast S1x128 b shapeCasts_S128_S1x128
/-- The classifier's bias laid out as one row. -/
def row16 (b : FVec F S16 .f32) : FVec F S1x16 .f32 := shapeCast S1x16 b shapeCasts_S16_S1x16

/-- Every row scaled by its entry of a column. -/
def scaleRows (x : FVec F S50000x128 .f32) (col : FVec F S50000x1 .f32) : FVec F S50000x128 .f32 :=
  mulf x (broadcastInDim S50000x128 ![0, 1] bcast_S50000x1_S50000x128_0_1 col)

/-- Message passing: the rows of `h` at the edges' sources (a negative index counted from the end), added up at the
    edges' destinations. -/
def aggregate (h : FVec F S50000x128 .f32) (src dst : IVec S1600000 32) : FVec F S50000x128 .f32 :=
  Host.scatterAdd scatter_S50000x128_S1600000x1_S1600000x128_1_0_0_1
    (broadcastInDim S50000x128 ![] bcast_S_S50000x128 (constant S_ .f32 0x00000000#32))
    (broadcastInDim S1600000x1 ![0] bcast_S1600000_S1600000x1_0 dst)
    (Host.gather gather_S50000x128_S1600000x1_S1600000x128_1_0_n_n_0_1_1128 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 50000#32))) src)))

/-- The mean of the nodes' rows per graph: the rows added up at their graph's number, over the number of the graph's
    nodes (at least one). -/
def meanPool (x : FVec F S50000x128 .f32) (g : IVec S50000 32) : FVec F S512x128 .f32 :=
  Host.divf
    (Host.scatterAdd scatter_S512x128_S50000x1_S50000x128_1_0_0_1
      (broadcastInDim S512x128 ![] bcast_S_S512x128 (constant S_ .f32 0x00000000#32))
      (broadcastInDim S50000x1 ![0] bcast_S50000_S50000x1_0 g) x)
    (broadcastInDim S512x128 ![0, 1] bcast_S512x1_S512x128_0_1
      (broadcastInDim S512x1 ![0] bcast_S512_S512x1_0
        (maximumf
          (Host.scatterAdd scatter_S512_S50000x1_S50000_n_0_0_1
            (broadcastInDim S512 ![] bcast_S_S512 (constant S_ .f32 0x00000000#32))
            (broadcastInDim S50000x1 ![0] bcast_S50000_S50000x1_0 g)
            (broadcastInDim S50000 ![] bcast_S_S50000 (constant S_ .f32 0x3F800000#32)))
          (broadcastInDim S512 ![] bcast_S_S512 (constant S_ .f32 0x3F800000#32)))))

end

/-- The whole program as a function of its ten arguments. -/
def result (a0 : FVec Ideal S50000x128 .f32) (a1 : FVec Ideal S128x128 .f32) (a2 : FVec Ideal S128 .f32)
    (a3 : FVec Ideal S128x128 .f32) (a4 : FVec Ideal S128 .f32) (a5 : FVec Ideal S128x16 .f32) (a6 : FVec Ideal S16 .f32)
    (a7 a8 : IVec S1600000 32) (a9 : IVec S50000 32) : FVec Ideal S512x16 .f32 :=
  fcOut
    (meanPool
      (convPlain
        (aggregate
          (convScaled (aggregate (scaleRows a0 (column (invSqrt (degree a7)))) a7 a8) (column (invSqrt (degree a8))) a1 (row128 a2)
            (column (invSqrt (degree a7))))
          a7 a8)
        (column (invSqrt (degree a8))) a3 (row128 a4))
      a9)
    a5 (row16 a6)

end Cert.KernelIdeal.Chains

end
-- ==== Proof.KValue.lean ====
/-
  What the kernel's program leaves in its result array: `Chains.result` of the ten argument arrays.
  Between the launch and the first region, between the regions and before the last one the program runs plain array
  operations; each stretch is read here as a pure function of the buffers it starts from, and each region as the
  whole-array function its write-backs leave (`Region0.final`, `Region1.final`, `Region2.final`); the pieces are
  composed along the program's order.
-/
import proofs.«402149_j41214506172827_3_alg».proof.Proof.KRun
import proofs.«402149_j41214506172827_3_alg».proof.Proof.Region0
import proofs.«402149_j41214506172827_3_alg».proof.Proof.Region1
import proofs.«402149_j41214506172827_3_alg».proof.Proof.Region2
import proofs.«402149_j41214506172827_3_alg».proof.Proof.Chains
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen Cert.KernelIdeal.Spec Cert.KernelIdeal.Chains

section Chains

variable {F : FTy → Type} [FloatOps F]

/-! ## The stretches of array operations, each from any starting contents `X` -/

/-- The operations before the first region, as one list. -/
abbrev preOps : List (HloOp τ sig (Elt F)) := hostOps0 ++ hostOps0_1 ++ hostOps0_2 ++ hostOps0_3 ++ hostOps0_4

set_option maxHeartbeats 4000000 in
theorem pre_v32 (X : Valuation τ sig (Elt F)) : after (preOps (F := F)) X (Proc.devRef .tc main_v32)
    = aggregate (scaleRows (X (Proc.devRef .tc main_arg0)) (column (invSqrt (degree (X (Proc.devRef .tc main_arg7)))))) (X (Proc.devRef .tc main_arg7)) (X (Proc.devRef .tc main_arg8)) := by
  simp only [preOps, hostOps0, hostOps0_1, hostOps0_2, hostOps0_3, hostOps0_4, List.cons_append, List.nil_append]
  after_results_simp
  try simp only [TRef.ofBuf, TRef.toBuf, cast_eq]
  rfl
set_option maxHeartbeats 4000000 in
theorem pre_v19 (X : Valuation τ sig (Elt F)) : after (preOps (F := F)) X (Proc.devRef .tc main_v19) = column (invSqrt (degree (X (Proc.devRef .tc main_arg8)))) := by
  simp only [preOps, hostOps0, hostOps0_1, hostOps0_2, hostOps0_3, hostOps0_4, List.cons_append, List.nil_append]
  after_results_simp
  try simp only [TRef.ofBuf, TRef.toBuf, cast_eq]
  rfl
set_option maxHeartbeats 4000000 in
theorem pre_v20 (X : Valuation τ sig (Elt F)) : after (preOps (F := F)) X (Proc.devRef .tc main_v20) = column (invSqrt (degree (X (Proc.devRef .tc main_arg7)))) := by
  simp only [preOps, hostOps0, hostOps0_1, hostOps0_2, hostOps0_3, hostOps0_4, List.cons_append, List.nil_append]
  after_results_simp
  try simp only [TRef.ofBuf, TRef.toBuf, cast_eq]
  rfl
set_option maxHeartbeats 4000000 in
theorem pre_v33 (X : Valuation τ sig (Elt F)) : after (preOps (F := F)) X (Proc.devRef .tc main_v33) = row128 (X (Proc.devRef .tc main_arg2)) := by
  simp only [preOps, hostOps0, hostOps0_1, hostOps0_2, hostOps0_3, hostOps0_4, List.cons_append, List.nil_append]
  after_results_simp
  try simp only [TRef.ofBuf, TRef.toBuf, cast_eq]
  rfl
theorem pre_arg1 (X : Valuation τ sig (Elt F)) : after (preOps (F := F)) X (Proc.devRef .tc main_arg1) = X (Proc.devRef .tc main_arg1) := by
  simp only [preOps, hostOps0, hostOps0_1, hostOps0_2, hostOps0_3, hostOps0_4, List.cons_append, List.nil_append]
  after_results_simp
theorem pre_arg3 (X : Valuation τ sig (Elt F)) : after (preOps (F := F)) X (Proc.devRef .tc main_arg3) = X (Proc.devRef .tc main_arg3) := by
  simp only [preOps, hostOps0, hostOps0_1, hostOps0_2, hostOps0_3, hostOps0_4, List.cons_append, List.nil_append]
  after_results_simp
theorem pre_arg4 (X : Valuation τ sig (Elt F)) : after (preOps (F := F)) X (Proc.devRef .tc main_arg4) = X (Proc.devRef .tc main_arg4) := by
  simp only [preOps, hostOps0, hostOps0_1, hostOps0_2, hostOps0_3, hostOps0_4, List.cons_append, List.nil_append]
  after_results_simp
theorem pre_arg5 (X : Valuation τ sig (Elt F)) : after (preOps (F := F)) X (Proc.devRef .tc main_arg5) = X (Proc.devRef .tc main_arg5) := by
  simp only [preOps, hostOps0, hostOps0_1, hostOps0_2, hostOps0_3, hostOps0_4, List.cons_append, List.nil_append]
  after_results_simp
theorem pre_arg6 (X : Valuation τ sig (Elt F)) : after (preOps (F := F)) X (Proc.devRef .tc main_arg6) = X (Proc.devRef .tc main_arg6) := by
  simp only [preOps, hostOps0, hostOps0_1, hostOps0_2, hostOps0_3, hostOps0_4, List.cons_append, List.nil_append]
  after_results_simp
theorem pre_arg7 (X : Valuation τ sig (Elt F)) : after (preOps (F := F)) X (Proc.devRef .tc main_arg7) = X (Proc.devRef .tc main_arg7) := by
  simp only [preOps, hostOps0, hostOps0_1, hostOps0_2, hostOps0_3, hostOps0_4, List.cons_append, List.nil_append]
  after_results_simp
theorem pre_arg8 (X : Valuation τ sig (Elt F)) : after (preOps (F := F)) X (Proc.devRef .tc main_arg8) = X (Proc.devRef .tc main_arg8) := by
  simp only [preOps, hostOps0, hostOps0_1, hostOps0_2, hostOps0_3, hostOps0_4, List.cons_append, List.nil_append]
  after_results_simp
theorem pre_arg9 (X : Valuation τ sig (Elt F)) : after (preOps (F := F)) X (Proc.devRef .tc main_arg9) = X (Proc.devRef .tc main_arg9) := by
  simp only [preOps, hostOps0, hostOps0_1, hostOps0_2, hostOps0_3, hostOps0_4, List.cons_append, List.nil_append]
  after_results_simp

theorem mid_v44 (X : Valuation τ sig (Elt F)) : after (hostOps1 (F := F)) X (Proc.devRef .tc main_v44)
    = aggregate (X (Proc.devRef .tc main_v34)) (X (Proc.devRef .tc main_arg7)) (X (Proc.devRef .tc main_arg8)) := by
  rw [hostOps1]; after_results_simp; rfl
theorem mid_v45 (X : Valuation τ sig (Elt F)) : after (hostOps1 (F := F)) X (Proc.devRef .tc main_v45) = row128 (X (Proc.devRef .tc main_arg4)) := by
  rw [hostOps1]; after_results_simp; rfl
theorem mid_v19 (X : Valuation τ sig (Elt F)) : after (hostOps1 (F := F)) X (Proc.devRef .tc main_v19) = X (Proc.devRef .tc main_v19) := by
  rw [hostOps1]; after_results_simp
theorem mid_arg3 (X : Valuation τ sig (Elt F)) : after (hostOps1 (F := F)) X (Proc.devRef .tc main_arg3) = X (Proc.devRef .tc main_arg3) := by
  rw [hostOps1]; after_results_simp
theorem mid_arg5 (X : Valuation τ sig (Elt F)) : after (hostOps1 (F := F)) X (Proc.devRef .tc main_arg5) = X (Proc.devRef .tc main_arg5) := by
  rw [hostOps1]; after_results_simp
theorem mid_arg6 (X : Valuation τ sig (Elt F)) : after (hostOps1 (F := F)) X (Proc.devRef .tc main_arg6) = X (Proc.devRef .tc main_arg6) := by
  rw [hostOps1]; after_results_simp
theorem mid_arg9 (X : Valuation τ sig (Elt F)) : after (hostOps1 (F := F)) X (Proc.devRef .tc main_arg9) = X (Proc.devRef .tc main_arg9) := by
  rw [hostOps1]; after_results_simp

theorem tail_v58 (X : Valuation τ sig (Elt F)) : after (hostOps2 (F := F)) X (Proc.devRef .tc main_v58)
    = meanPool (X (Proc.devRef .tc main_v46)) (X (Proc.devRef .tc main_arg9)) := by
  rw [hostOps2]; after_results_simp; rfl
theorem tail_v59 (X : Valuation τ sig (Elt F)) : after (hostOps2 (F := F)) X (Proc.devRef .tc main_v59) = row16 (X (Proc.devRef .tc main_arg6)) := by
  rw [hostOps2]; after_results_simp; rfl
theorem tail_arg5 (X : Valuation τ sig (Elt F)) : after (hostOps2 (F := F)) X (Proc.devRef .tc main_arg5) = X (Proc.devRef .tc main_arg5) := by
  rw [hostOps2]; after_results_simp

end Chains

/-! ## The program's result -/

variable (m : (ℓ : Loc nD τ sig) → Buf (Elt Ideal) ℓ) (ρ : Dev nD → PrngReg)

/-- The contents the first region is entered with are the first stretch's from the launch memory. -/
theorem W5_merge (c : Dev nD) : W5 m ρ c = after preOps (W0 m ρ c) := by
  simp only [preOps, StableHlo.after_append]

theorem W5_at (c : Dev nD) (b : DevRef τ sig) : W5 m ρ c b = after preOps (W0 m ρ c) b := congrFun (W5_merge m ρ c) b

/-- What the first region leaves in its output array. -/
theorem exit0 (c : Dev nD) : W6 m ρ c (Proc.devRef .tc main_v34)
    = convScaled (aggregate (scaleRows (m ((c.tc : Thread nD τ).loc main_arg0)) (column (invSqrt (degree (m ((c.tc : Thread nD τ).loc main_arg7)))))) (m ((c.tc : Thread nD τ).loc main_arg7)) (m ((c.tc : Thread nD τ).loc main_arg8)))
        (column (invSqrt (degree (m ((c.tc : Thread nD τ).loc main_arg8))))) (m ((c.tc : Thread nD τ).loc main_arg1)) (row128 (m ((c.tc : Thread nD τ).loc main_arg2))) (column (invSqrt (degree (m ((c.tc : Thread nD τ).loc main_arg7))))) := by
  refine (W6_arr m ρ c 5).trans ((Region0.final (V5 m ρ) c).trans ?_)
  show convScaled (W5 m ρ c (Proc.devRef .tc main_v32)) (W5 m ρ c (Proc.devRef .tc main_v19)) (W5 m ρ c (Proc.devRef .tc main_arg1)) (W5 m ρ c (Proc.devRef .tc main_v33)) (W5 m ρ c (Proc.devRef .tc main_v20)) = _
  rw [W5_at, W5_at, W5_at, W5_at, W5_at, pre_v32, pre_v19, pre_arg1, pre_v33, pre_v20]

/-- An argument array, or the in-degree column, as the second region finds it. -/
theorem W6_keep (c : Dev nD) (b : Ref sig .tc) (hb : ∀ w, Pipeline.arrRef spec0 w ≠ b) :
    W6 m ρ c (Proc.devRef .tc b) = after preOps (W0 m ρ c) (Proc.devRef .tc b) :=
  (W6_of_ne m ρ c b hb).trans (W5_at m ρ c _)

theorem W6_v19 (c : Dev nD) : W6 m ρ c (Proc.devRef .tc main_v19) = (column (invSqrt (degree (m ((c.tc : Thread nD τ).loc main_arg8)))) : FVec Ideal S50000x1 .f32) := by
  refine (W6_arr m ρ c 1).trans (((dat0 (V5 m ρ) c).arrAt_in 1 rfl _).trans ((A_eq0 (V5 m ρ) c 1).trans ?_))
  show W5 m ρ c (Proc.devRef .tc main_v19) = _
  rw [W5_at, pre_v19]

/-- What the second region leaves in its output array. -/
theorem exit1 (c : Dev nD) : W8 m ρ c (Proc.devRef .tc main_v46)
    = convPlain
        (aggregate
          (convScaled (aggregate (scaleRows (m ((c.tc : Thread nD τ).loc main_arg0)) (column (invSqrt (degree (m ((c.tc : Thread nD τ).loc main_arg7)))))) (m ((c.tc : Thread nD τ).loc main_arg7)) (m ((c.tc : Thread nD τ).loc main_arg8)))
            (column (invSqrt (degree (m ((c.tc : Thread nD τ).loc main_arg8))))) (m ((c.tc : Thread nD τ).loc main_arg1)) (row128 (m ((c.tc : Thread nD τ).loc main_arg2))) (column (invSqrt (degree (m ((c.tc : Thread nD τ).loc main_arg7))))))
          (m ((c.tc : Thread nD τ).loc main_arg7)) (m ((c.tc : Thread nD τ).loc main_arg8)))
        (column (invSqrt (degree (m ((c.tc : Thread nD τ).loc main_arg8))))) (m ((c.tc : Thread nD τ).loc main_arg3)) (row128 (m ((c.tc : Thread nD τ).loc main_arg4))) := by
  refine (W8_arr m ρ c 4).trans ((Region1.final (V7 m ρ) c).trans ?_)
  show convPlain (after hostOps1 (W6 m ρ c) (Proc.devRef .tc main_v44)) (after hostOps1 (W6 m ρ c) (Proc.devRef .tc main_v19)) (after hostOps1 (W6 m ρ c) (Proc.devRef .tc main_arg3)) (after hostOps1 (W6 m ρ c) (Proc.devRef .tc main_v45)) = _
  rw [mid_v44, mid_v19, mid_arg3, mid_v45, exit0, W6_v19,
    W6_keep m ρ c main_arg7 (by decide), W6_keep m ρ c main_arg8 (by decide), W6_keep m ρ c main_arg3 (by decide), W6_keep m ρ c main_arg4 (by decide),
    pre_arg7, pre_arg8, pre_arg3, pre_arg4]

/-- An argument array as the last stretch finds it. -/
theorem W8_keep (c : Dev nD) (b : Ref sig .tc) (hb1 : ∀ w, Pipeline.arrRef spec1 w ≠ b) (hb0 : ∀ w, Pipeline.arrRef spec0 w ≠ b)
    (hmid : after hostOps1 (W6 m ρ c) (Proc.devRef .tc b) = W6 m ρ c (Proc.devRef .tc b)) :
    W8 m ρ c (Proc.devRef .tc b) = after preOps (W0 m ρ c) (Proc.devRef .tc b) :=
  (W8_of_ne m ρ c b hb1).trans (hmid.trans (W6_keep m ρ c b hb0))

/-- THE RESULT ARRAY after the run. -/
theorem W10_result (c : Dev nD) : W10 m ρ c (Proc.devRef .tc main_v60)
    = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W10_arr m ρ c 3).trans ((Region2.final (V9 m ρ) c).trans ?_)
  show fcOut (after hostOps2 (W8 m ρ c) (Proc.devRef .tc main_v58)) (after hostOps2 (W8 m ρ c) (Proc.devRef .tc main_arg5)) (after hostOps2 (W8 m ρ c) (Proc.devRef .tc main_v59)) = _
  rw [tail_v58, tail_arg5, tail_v59, exit1,
    W8_keep m ρ c main_arg9 (by decide) (by decide) (mid_arg9 _), W8_keep m ρ c main_arg5 (by decide) (by decide) (mid_arg5 _),
    W8_keep m ρ c main_arg6 (by decide) (by decide) (mid_arg6 _), pre_arg9, pre_arg5, pre_arg6]
  rfl

/-- The run, read: the result array at `result` of the arguments, the arguments unchanged. -/
theorem run : θ_run defs (onTc (τ := τ) (main (F := Ideal))) ⟨m, fun _ => 0, ρ⟩ (fun r => ∀ c : Dev nD,
      r.2.mem ((c.tc : Thread nD τ).loc main_v60) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W10_result m ρ c), (h c).2⟩) (Cert.KernelIdeal.Run.run m ρ)

end Cert.KernelIdeal.KValue

end
-- ==== Proof.RefLayers.lean ====
/- The reference's three dense stretches, each as the same whole-array function the kernel's regions compute. -/
import proofs.«402149_j41214506172827_3_alg».proof.Proof.RefRead
import proofs.«402149_j41214506172827_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx

namespace Cert.ReferenceIdeal.Layers

open Cert.ReferenceIdeal Cert.ReferenceIdeal.ReadP Cert.KernelIdeal.Spec

/-! ### Index equations

Each layout operation reads its operand at an index computed from the result's index; at an index given by its
coordinates that index is again one given by coordinates. -/

/-- The row factor, spread along the columns, is read in its row at column 0 (first layer, inbound factor). -/
theorem idx33 (p : Fin 50000) (k : Fin 128) : idx_main_v33 (ix2 p k) = ix2 p (0 : Fin 1) :=
  funext fun a => Fin.ext (by match a with | ⟨0, _⟩ => rfl | ⟨1, _⟩ => rfl)

/-- The bias row, spread along the rows, is read in row 0 at its column (first layer). -/
theorem idx37 (p : Fin 50000) (q : Fin 128) : idx_main_v37 (ix2 p q) = ix2 (0 : Fin 1) q :=
  funext fun a => Fin.ext (by match a with | ⟨0, _⟩ => rfl | ⟨1, _⟩ => rfl)

/-- The row factor, spread along the columns, is read in its row at column 0 (first layer, outbound factor). -/
theorem idx41 (p : Fin 50000) (q : Fin 128) : idx_main_v41 (ix2 p q) = ix2 p (0 : Fin 1) :=
  funext fun a => Fin.ext (by match a with | ⟨0, _⟩ => rfl | ⟨1, _⟩ => rfl)

/-- The product's left operand at term `k` of entry (p, q) is entry (p, k) (first layer). -/
theorem lidx35 (p : Fin 50000) (q k : Fin 128) : lidx_main_v35 (ix2 p q) k = ix2 p k :=
  funext fun a => Fin.ext (by match a with | ⟨0, _⟩ => rfl | ⟨1, _⟩ => rfl)

/-- The product's right operand at term `k` of entry (p, q) is entry (k, q) (first layer). -/
theorem ridx35 (p : Fin 50000) (q k : Fin 128) : ridx_main_v35 (ix2 p q) k = ix2 k q :=
  funext fun a => Fin.ext (by match a with | ⟨0, _⟩ => rfl | ⟨1, _⟩ => rfl)

/-- The row factor, spread along the columns, is read in its row at column 0 (second layer). -/
theorem idx54 (p : Fin 50000) (k : Fin 128) : idx_main_v54 (ix2 p k) = ix2 p (0 : Fin 1) :=
  funext fun a => Fin.ext (by match a with | ⟨0, _⟩ => rfl | ⟨1, _⟩ => rfl)

/-- The bias row, spread along the rows, is read in row 0 at its column (second layer). -/
theorem idx58 (p : Fin 50000) (q : Fin 128) : idx_main_v58 (ix2 p q) = ix2 (0 : Fin 1) q :=
  funext fun a => Fin.ext (by match a with | ⟨0, _⟩ => rfl | ⟨1, _⟩ => rfl)

/-- The product's left operand at term `k` of entry (p, q) is entry (p, k) (second layer). -/
theorem lidx56 (p : Fin 50000) (q k : Fin 128) : lidx_main_v56 (ix2 p q) k = ix2 p k :=
  funext fun a => Fin.ext (by match a with | ⟨0, _⟩ => rfl | ⟨1, _⟩ => rfl)

/-- The product's right operand at term `k` of entry (p, q) is entry (k, q) (second layer). -/
theorem ridx56 (p : Fin 50000) (q k : Fin 128) : ridx_main_v56 (ix2 p q) k = ix2 k q :=
  funext fun a => Fin.ext (by match a with | ⟨0, _⟩ => rfl | ⟨1, _⟩ => rfl)

/-- The classifier's bias row, spread along the rows, is read in row 0 at its column. -/
theorem idx75 (g : Fin 512) (j : Fin 16) : idx_main_v75 (ix2 g j) = ix2 (0 : Fin 1) j :=
  funext fun a => Fin.ext (by match a with | ⟨0, _⟩ => rfl | ⟨1, _⟩ => rfl)

/-- The classifier's left operand at term `k` of entry (g, j) is entry (g, k). -/
theorem lidx73 (g : Fin 512) (j : Fin 16) (k : Fin 128) : lidx_main_v73 (ix2 g j) k = ix2 g k :=
  funext fun a => Fin.ext (by match a with | ⟨0, _⟩ => rfl | ⟨1, _⟩ => rfl)

/-- The classifier's right operand at term `k` of entry (g, j) is entry (k, j). -/
theorem ridx73 (g : Fin 512) (j : Fin 16) (k : Fin 128) : ridx_main_v73 (ix2 g j) k = ix2 k j :=
  funext fun a => Fin.ext (by match a with | ⟨0, _⟩ => rfl | ⟨1, _⟩ => rfl)

/-! ### The first layer: operations %33 … %42 -/

/-- Entry (p, k) of the scaled aggregate %34: the aggregate's entry times row `p`'s factor. -/
theorem v34_at (x0 : FVec Ideal S50000x128 .f32) (x7 x8 : IVec S1600000 32) (p : Fin 50000) (k : Fin 128) :
    val_main_v34 (F := Ideal) x0 x7 x8 (ix2 p k)
      = val_main_v31 (F := Ideal) x0 x7 x8 (ix2 p k) * val_main_v32 (F := Ideal) x8 (ix2 p (0 : Fin 1)) := by
  rw [val_main_v34_apply, val_main_v33_apply, idx33]
  rfl

/-- Entry (p, q) of the product %35 as the sum over `k` of scaled aggregate times weight. -/
theorem v35_at (x0 : FVec Ideal S50000x128 .f32) (x1 : FVec Ideal S128x128 .f32) (x7 x8 : IVec S1600000 32)
    (p : Fin 50000) (q : Fin 128) :
    val_main_v35 (F := Ideal) x0 x1 x7 x8 (ix2 p q)
      = ∑ k : Fin 128, (val_main_v31 (F := Ideal) x0 x7 x8 (ix2 p k) * val_main_v32 (F := Ideal) x8 (ix2 p (0 : Fin 1)))
          * x1 (ix2 k q) := by
  rw [val_main_v35_apply]
  refine Finset.sum_congr rfl fun k _ => ?_
  rw [lidx35, ridx35, v34_at]

/-- The clip's zero at any entry is the zero word. -/
theorem call2_zero_at (i : S50000x128.Idx) : val_main_call2_v0 (F := Ideal) i = zeroF := by
  rw [val_main_call2_v0_apply, val_main_call2_cst_apply]

theorem layer1 (x0 : FVec Ideal S50000x128 .f32) (x1 : FVec Ideal S128x128 .f32) (x2 : FVec Ideal S128 .f32)
    (x7 x8 : IVec S1600000 32) :
    val_main_v42 (F := Ideal) x0 x1 x2 x7 x8
      = convScaled (val_main_v31 (F := Ideal) x0 x7 x8) (val_main_v32 (F := Ideal) x8) x1 (val_main_v36 (F := Ideal) x2) (val_main_v40 (F := Ideal) x7) := by
  funext i
  obtain ⟨p, q, rfl⟩ : ∃ (p : Fin 50000) (q : Fin 128), i = ix2 p q := ⟨i 0, i 1, eq_ix2 i⟩
  rw [val_main_v42_apply, val_main_v39_apply, val_main_v38_apply, v35_at, val_main_v37_apply, idx37,
    call2_zero_at, val_main_v41_apply, idx41, convScaled_ix2]
  rfl

/-! ### The second layer: operations %54 … %60 -/

/-- Entry (p, k) of the scaled aggregate %55: the aggregate's entry times row `p`'s factor. -/
theorem v55_at (x0 : FVec Ideal S50000x128 .f32) (x1 : FVec Ideal S128x128 .f32) (x2 : FVec Ideal S128 .f32)
    (x7 x8 : IVec S1600000 32) (p : Fin 50000) (k : Fin 128) :
    val_main_v55 (F := Ideal) x0 x1 x2 x7 x8 (ix2 p k)
      = val_main_v52 (F := Ideal) x0 x1 x2 x7 x8 (ix2 p k) * val_main_v53 (F := Ideal) x8 (ix2 p (0 : Fin 1)) := by
  rw [val_main_v55_apply, val_main_v54_apply, idx54]
  rfl

/-- Entry (p, q) of the product %56 as the sum over `k` of scaled aggregate times weight. -/
theorem v56_at (x0 : FVec Ideal S50000x128 .f32) (x1 : FVec Ideal S128x128 .f32) (x2 : FVec Ideal S128 .f32)
    (x3 : FVec Ideal S128x128 .f32) (x7 x8 : IVec S1600000 32) (p : Fin 50000) (q : Fin 128) :
    val_main_v56 (F := Ideal) x0 x1 x2 x3 x7 x8 (ix2 p q)
      = ∑ k : Fin 128, (val_main_v52 (F := Ideal) x0 x1 x2 x7 x8 (ix2 p k) * val_main_v53 (F := Ideal) x8 (ix2 p (0 : Fin 1)))
          * x3 (ix2 k q) := by
  rw [val_main_v56_apply]
  refine Finset.sum_congr rfl fun k _ => ?_
  rw [lidx56, ridx56, v55_at]

/-- The clip's zero at any entry is the zero word. -/
theorem call3_zero_at (i : S50000x128.Idx) : val_main_call3_v0 (F := Ideal) i = zeroF := by
  rw [val_main_call3_v0_apply, val_main_call3_cst_apply]

theorem layer2 (x0 : FVec Ideal S50000x128 .f32) (x1 : FVec Ideal S128x128 .f32) (x2 : FVec Ideal S128 .f32)
    (x3 : FVec Ideal S128x128 .f32) (x4 : FVec Ideal S128 .f32) (x7 x8 : IVec S1600000 32) :
    val_main_v60 (F := Ideal) x0 x1 x2 x3 x4 x7 x8
      = convPlain (val_main_v52 (F := Ideal) x0 x1 x2 x7 x8) (val_main_v53 (F := Ideal) x8) x3 (val_main_v57 (F := Ideal) x4) := by
  funext i
  obtain ⟨p, q, rfl⟩ : ∃ (p : Fin 50000) (q : Fin 128), i = ix2 p q := ⟨i 0, i 1, eq_ix2 i⟩
  rw [val_main_v60_apply, val_main_v59_apply, v56_at, val_main_v58_apply, idx58, call3_zero_at, convPlain_ix2]
  rfl

/-! ### The classifier: operations %73, %75, %76 -/

theorem layer3 (x0 : FVec Ideal S50000x128 .f32) (x1 : FVec Ideal S128x128 .f32) (x2 : FVec Ideal S128 .f32)
    (x3 : FVec Ideal S128x128 .f32) (x4 : FVec Ideal S128 .f32) (x5 : FVec Ideal S128x16 .f32) (x6 : FVec Ideal S16 .f32)
    (x7 x8 : IVec S1600000 32) (x9 : IVec S50000 32) :
    val_main_v76 (F := Ideal) x0 x1 x2 x3 x4 x5 x6 x7 x8 x9
      = fcOut (val_main_v72 (F := Ideal) x0 x1 x2 x3 x4 x7 x8 x9) x5 (val_main_v74 (F := Ideal) x6) := by
  funext i
  obtain ⟨g, j, rfl⟩ : ∃ (g : Fin 512) (j : Fin 16), i = ix2 g j := ⟨i 0, i 1, eq_ix2 i⟩
  rw [val_main_v76_apply, val_main_v73_apply, val_main_v75_apply, idx75, fcOut_ix2]
  unfold fcAt
  simp only [lidx73, ridx73]
  rfl

end Cert.ReferenceIdeal.Layers

end
-- ==== Proof.LibColumnCast.lean ====
/-
  A vector laid out as one column: an `[a]` array cast to `[a, 1]` read at an entry.  (The row form, `[a]` to
  `[1, a]`, is the library's `shapeCast_a_1a_apply`; the two row-major positions agree because the unit axis
  contributes nothing.)
-/
import Idealize.ShloMosaic.Lib.Pipeline.Value
import Idealize.ShloMosaic.Lib.ValueIdx
import Idealize.ShloMosaic.Lib.ValueLayout

namespace Idealize.ShloMosaic.ColumnCast

open Idealize.ShloMosaic Idealize.ShloMosaic.ValueIdx

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.ColumnCast
-- ==== Proof.RefBridge.lean ====
/- The reference's result, stage by stage, is the same function of the ten arguments as the kernel's: outside the
   three dense stretches the two programs run the same array operations, and the dense stretches are the
   specification's functions on both sides. -/
import proofs.«402149_j41214506172827_3_alg».proof.Proof.RefLayers
import proofs.«402149_j41214506172827_3_alg».proof.Proof.Chains
import proofs.«402149_j41214506172827_3_alg».proof.Proof.LibColumnCast
import Idealize.ShloMosaic.Lib.Pipeline.Value
import Idealize.ShloMosaic.Lib.ValueIdx
import Idealize.ShloMosaic.Lib.ValueLayout

set_option maxRecDepth 16384

noncomputable section

open Idealize.ShloMosaic Idealize.ShloMosaic.TcCoe Idealize.SL.Sem Idealize.ShloMosaic.ValueIdx Idealize.ShloMosaic.ColumnCast

namespace Cert.ReferenceIdeal.Bridge

open Cert.ReferenceIdeal Cert.ReferenceIdeal.ReadP Cert.KernelIdeal.Spec Cert.KernelIdeal.Chains

/-! ### A column and a row: the reshape and the broadcast along the kept axis are one layout -/

/-- A per-node vector spread along axis 0 of `[50000, 1]` is that vector reshaped to one column. -/
theorem bcast_eq_column {α : Type} (v : S50000.Idx → α)
    (hb : S50000.BroadcastsInDim S50000x1 (![0] : Fin 1 → Fin S50000x1.rank)) (hs : S50000.ShapeCasts S50000x1) :
    broadcastInDim S50000x1 ![0] hb v = shapeCast S50000x1 v hs := by
  funext i
  obtain ⟨p, u, rfl⟩ : ∃ (p : Fin 50000) (u : Fin 1), i = ix2 p u := ⟨i 0, i 1, eq_ix2 i⟩
  exact (broadcastInDim_apply _ hb v (ix2 p u) (ix1 p) (fun a => match a with
    | ⟨0, _⟩ => by show p.val = if (50000 : Nat) = 1 then 0 else p.val; rw [if_neg (by decide)])).trans
    (shapeCast_a_a1_apply v hs p u).symm

/-- A bias spread along axis 1 of `[1, 128]` is that bias reshaped to one row. -/
theorem bcast_eq_row128 {α : Type} (b : S128.Idx → α)
    (hb : S128.BroadcastsInDim S1x128 (![1] : Fin 1 → Fin S1x128.rank)) (hs : S128.ShapeCasts S1x128) :
    broadcastInDim S1x128 ![1] hb b = shapeCast S1x128 b hs := by
  funext i
  obtain ⟨u, q, rfl⟩ : ∃ (u : Fin 1) (q : Fin 128), i = ix2 u q := ⟨i 0, i 1, eq_ix2 i⟩
  exact (broadcastInDim_apply _ hb b (ix2 u q) (ix1 q) (fun a => match a with
    | ⟨0, _⟩ => by show q.val = if (128 : Nat) = 1 then 0 else q.val; rw [if_neg (by decide)])).trans
    (shapeCast_a_1a_apply b hs u q).symm

/-- A bias spread along axis 1 of `[1, 16]` is that bias reshaped to one row. -/
theorem bcast_eq_row16 {α : Type} (b : S16.Idx → α)
    (hb : S16.BroadcastsInDim S1x16 (![1] : Fin 1 → Fin S1x16.rank)) (hs : S16.ShapeCasts S1x16) :
    broadcastInDim S1x16 ![1] hb b = shapeCast S1x16 b hs := by
  funext i
  obtain ⟨u, q, rfl⟩ : ∃ (u : Fin 1) (q : Fin 16), i = ix2 u q := ⟨i 0, i 1, eq_ix2 i⟩
  exact (broadcastInDim_apply _ hb b (ix2 u q) (ix1 q) (fun a => match a with
    | ⟨0, _⟩ => by show q.val = if (16 : Nat) = 1 then 0 else q.val; rw [if_neg (by decide)])).trans
    (shapeCast_a_1a_apply b hs u q).symm

section
variable {F : FTy → Type} [FloatOps F]

/-! ### The degrees and their factors: operations %0 … %18 -/

/-- %3 counts, per node, the edges whose first end it is. -/
theorem v3_eq (x7 : IVec S1600000 32) : val_main_v3 (F := F) x7 = degree x7 := by
  unfold val_main_v3 val_main_v1 val_main_cst_0 val_main_v2 val_main_v0 val_main_cst degree
  rfl

/-- %6 counts, per node, the edges whose second end it is. -/
theorem v6_eq (x8 : IVec S1600000 32) : val_main_v6 (F := F) x8 = degree x8 := by
  unfold val_main_v6 val_main_v4 val_main_cst_1 val_main_v5 val_main_v0 val_main_cst degree
  rfl

/-- %12 is the factor of the first ends' degrees. -/
theorem v12_eq (x7 : IVec S1600000 32) : val_main_v12 (F := F) x7 = invSqrt (degree x7) := by
  unfold val_main_v12 val_main_v8 val_main_v7 val_main_cst_2 val_main_v11 val_main_v10 val_main_v9 val_main_cst_3
    val_main_call0_v1 val_main_call0_v0 val_main_cst_4
  rw [v3_eq]
  rfl

/-- %18 is the factor of the second ends' degrees. -/
theorem v18_eq (x8 : IVec S1600000 32) : val_main_v18 (F := F) x8 = invSqrt (degree x8) := by
  unfold val_main_v18 val_main_v14 val_main_v13 val_main_cst_5 val_main_v17 val_main_v16 val_main_v15 val_main_cst_6
    val_main_call1_v1 val_main_call1_v0 val_main_cst_7
  rw [v6_eq]
  rfl

/-! ### The columns and rows the dense stretches take -/

theorem v19_eq (x7 : IVec S1600000 32) : val_main_v19 (F := F) x7 = column (invSqrt (degree x7)) := by
  unfold val_main_v19 column
  rw [v12_eq]
  exact bcast_eq_column _ _ _

theorem v32_eq (x8 : IVec S1600000 32) : val_main_v32 (F := F) x8 = column (invSqrt (degree x8)) := by
  unfold val_main_v32 column
  rw [v18_eq]
  exact bcast_eq_column _ _ _

theorem v40_eq (x7 : IVec S1600000 32) : val_main_v40 (F := F) x7 = column (invSqrt (degree x7)) := by
  unfold val_main_v40 column
  rw [v12_eq]
  exact bcast_eq_column _ _ _

theorem v53_eq (x8 : IVec S1600000 32) : val_main_v53 (F := F) x8 = column (invSqrt (degree x8)) := by
  unfold val_main_v53 column
  rw [v18_eq]
  exact bcast_eq_column _ _ _

theorem v36_eq (x2 : FVec F S128 .f32) : val_main_v36 (F := F) x2 = row128 x2 := by
  unfold val_main_v36 row128
  exact bcast_eq_row128 _ _ _

theorem v57_eq (x4 : FVec F S128 .f32) : val_main_v57 (F := F) x4 = row128 x4 := by
  unfold val_main_v57 row128
  exact bcast_eq_row128 _ _ _

theorem v74_eq (x6 : FVec F S16 .f32) : val_main_v74 (F := F) x6 = row16 x6 := by
  unfold val_main_v74 row16
  exact bcast_eq_row16 _ _ _

/-! ### Message passing and the mean per graph -/

/-- %21 is the input with every row scaled by its first-end factor. -/
theorem v21_eq (x0 : FVec F S50000x128 .f32) (x7 : IVec S1600000 32) :
    val_main_v21 (F := F) x0 x7 = scaleRows x0 (column (invSqrt (degree x7))) := by
  unfold val_main_v21 val_main_v20 scaleRows
  rw [v19_eq]

/-- %22 … %31: the first message passing step, on the scaled input. -/
theorem v31_eq (x0 : FVec F S50000x128 .f32) (x7 x8 : IVec S1600000 32) :
    val_main_v31 (F := F) x0 x7 x8 = aggregate (scaleRows x0 (column (invSqrt (degree x7)))) x7 x8 := by
  unfold val_main_v31 val_main_v28
  rw [v21_eq]
  unfold val_main_v29 val_main_cst_9 val_main_v30 val_main_v27 val_main_v26 val_main_v23 val_main_v22 val_main_c
    val_main_v25 val_main_v24 val_main_c_8 aggregate
  rfl

/-- %43 … %52: the second message passing step, on the first layer's result. -/
theorem v52_eq (x0 : FVec F S50000x128 .f32) (x1 : FVec F S128x128 .f32) (x2 : FVec F S128 .f32)
    (x7 x8 : IVec S1600000 32) :
    val_main_v52 (F := F) x0 x1 x2 x7 x8 = aggregate (val_main_v42 (F := F) x0 x1 x2 x7 x8) x7 x8 := by
  unfold val_main_v52 val_main_v49 val_main_v50 val_main_cst_12 val_main_v51 val_main_v48 val_main_v47 val_main_v44
    val_main_v43 val_main_c_10 val_main_v46 val_main_v45 val_main_c_11 aggregate
  rfl

/-- %61 … %72: the mean per graph of the second layer's result. -/
theorem v72_eq (x0 : FVec F S50000x128 .f32) (x1 : FVec F S128x128 .f32) (x2 : FVec F S128 .f32)
    (x3 : FVec F S128x128 .f32) (x4 : FVec F S128 .f32) (x7 x8 : IVec S1600000 32) (x9 : IVec S50000 32) :
    val_main_v72 (F := F) x0 x1 x2 x3 x4 x7 x8 x9
      = meanPool (val_main_v60 (F := F) x0 x1 x2 x3 x4 x7 x8) x9 := by
  unfold val_main_v72 val_main_v63 val_main_v61 val_main_cst_13 val_main_v62 val_main_v71 val_main_v70 val_main_v69
    val_main_v67 val_main_v65 val_main_cst_15 val_main_v66 val_main_v64 val_main_cst_14 val_main_v68 val_main_cst_16
    meanPool
  rfl

end

/-! ### The whole reference -/

theorem result_eq (x0 : FVec Ideal S50000x128 .f32) (x1 : FVec Ideal S128x128 .f32) (x2 : FVec Ideal S128 .f32) (x3 : FVec Ideal S128x128 .f32) (x4 : FVec Ideal S128 .f32) (x5 : FVec Ideal S128x16 .f32) (x6 : FVec Ideal S16 .f32) (x7 x8 : IVec S1600000 32) (x9 : IVec S50000 32) :
    val_main_v76 (F := Ideal) x0 x1 x2 x3 x4 x5 x6 x7 x8 x9 = Cert.KernelIdeal.Chains.result x0 x1 x2 x3 x4 x5 x6 x7 x8 x9 := by
  rw [Layers.layer3, v72_eq, Layers.layer2, v52_eq, Layers.layer1, v31_eq, v32_eq, v36_eq, v40_eq, v53_eq, v57_eq, v74_eq]
  rfl

end Cert.ReferenceIdeal.Bridge

end
-- ==== Proof.lean ====
/-
  Two graph-convolution layers with symmetric degree normalisation, a per-graph mean and a linear classifier, computed
  two ways: by a program that runs the three dense stretches (scale the aggregated rows, multiply by the weights, add
  the bias, clip at zero; at the end multiply the pooled features by the classifier's weights and add its bias) as
  block kernels of 5000 rows — the last one in a single block —, and by a reference that runs them as whole-array
  operations.  Everything else (the degree counts, the factors deg^(-1/2), the gathers along the edges and the
  scatter-adds, the mean over each graph) is the same sequence of array operations in both.

  Over the extended reals every dense stretch is, entry by entry,
      out[r, j] = max( Σ_k (agg[r, k] · ni[r]) · W[k, j] + b[j], 0 )   (· no[r] after the first layer),
      res[g, j] = Σ_k pooled[g, k] · Wf[k, j] + bf[j],
  with the same factors in the same order on both sides: a product into a zero accumulator is the plain sum, a
  change of float format is the identity, a block of rows of a matrix product depends on the same rows of its left
  operand only.  So both programs end with `Chains.result` of their ten arguments (`KValue.run` for the kernel's
  program, the reference's run with `Bridge.result_eq`), and no law of arithmetic — hence no use of the inputs'
  finiteness — is needed.  The idealization rewrote nothing, so `preserves` has nothing to state.
-/
import proofs.«402149_j41214506172827_3_alg».proof.Defs
import proofs.«402149_j41214506172827_3_alg».proof.Proof.Gen.Kernel
import proofs.«402149_j41214506172827_3_alg».proof.Proof.Gen.Kernel.Frame
import proofs.«402149_j41214506172827_3_alg».proof.Proof.Gen.KernelIdeal
import proofs.«402149_j41214506172827_3_alg».proof.Proof.Gen.KernelIdeal.Frame
import proofs.«402149_j41214506172827_3_alg».proof.Proof.Gen.ReferenceIdeal
import proofs.«402149_j41214506172827_3_alg».proof.Proof.Gen.Pre_finite_inputs
import proofs.«402149_j41214506172827_3_alg».proof.Proof.KValue
import proofs.«402149_j41214506172827_3_alg».proof.Proof.RefBridge

noncomputable section

namespace Cert.Proof

open Idealize.ShloMosaic Idealize.SL.Sem

/-- The program as printed runs to its end without a fault and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference is array operations only: its run, with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- Both programs, from memories that agree on the ten arguments, end with the same result array:
    `Chains.result` of the arguments. -/
theorem algebraic : Cert.algebraic_KernelIdeal_ReferenceIdeal := by
  intro m ρ m' ρ' _ hagree
  refine ⟨fun c => Cert.KernelIdeal.Chains.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.KernelIdeal.KValue.run m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9⟩ := hagree c
  rw [Cert.ReferenceIdeal.ReadP.val_main_v76_eq, e0, e1, e2, e3, e4, e5, e6, e7, e8, e9]
  exact Cert.ReferenceIdeal.Bridge.result_eq _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
